-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1024x256 : Shape := ⟨2, ![1024, 256]⟩
abbrev S1024x1 : Shape := ⟨2, ![1024, 1]⟩
abbrev S1x1024 : Shape := ⟨2, ![1, 1024]⟩
abbrev S1024 : Shape := ⟨1, ![1024]⟩
abbrev S256x1024 : Shape := ⟨2, ![256, 1024]⟩
abbrev S1024x1024 : Shape := ⟨2, ![1024, 1024]⟩

abbrev nBuf : Space → Nat
  | .hbm => 16
  | .vmem => 12
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S8192x256, .f32⟩
  | .hbm, ⟨8, _⟩ => ⟨S8192x256, .f32⟩
  | .hbm, ⟨9, _⟩ => ⟨S8192x1, .i32⟩
  | .hbm, ⟨10, _⟩ => ⟨S1x8192, .i32⟩
  | .hbm, ⟨11, _⟩ => ⟨S8192x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v51 : BitVec 1 := Scalar.cmpi .eq arg1 c7_i32
  let v52 : BitVec 32 := Scalar.extui v51
  let c0_i32_24 : BitVec 32 := 0#32
  let v53 : BitVec 1 := Scalar.cmpi .ne v52 c0_i32_24
  v53

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  reduces_S1024x256_S1024 : S1024x256.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  transposes_S1024x256_p1_0_S256x1024 : S1024x256.Transposes [1, 0] S256x1024
  broadcasts_S1024x1_S1024x1024 : S1024x1.Broadcasts S1024x1024
  broadcasts_S1x1024_S1024x1024 : S1x1024.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S1024x1024_S1024 : S1024x1024.Reduces [1] S1024
  reducesTo_S8192x1_S_d0_1 : S8192x1.ReducesTo [0, 1] S_
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v5) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S256x8192 : Shape := ⟨2, ![256, 8192]⟩

abbrev nBuf : Space → Nat
  | .hbm => 53
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S1x8192, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S256x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x1, .i32⟩
  | .hbm, ⟨28, _⟩ => ⟨S1x8192, .i32⟩
  | .hbm, ⟨29, _⟩ => ⟨S8192x8192, .i32⟩
  | .hbm, ⟨30, _⟩ => ⟨S8192x8192, .i32⟩
  | .hbm, ⟨31, _⟩ => ⟨S8192x8192, .i1⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192, .f32⟩
  | .hbm, ⟨37, _⟩ => ⟨S_, .f32⟩
  | .hbm, ⟨38, _⟩ => ⟨S8192x8192, .f32⟩
  | .hbm, ⟨39, _⟩ => ⟨S8192x8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_call1_v0 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_call2_v0 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_call3_cst : Ref sig .tc := ⟨.hbm, 46, rfl⟩
abbrev main_call3_v0 : Ref sig .tc := ⟨.hbm, 47, rfl⟩
abbrev main_v31 : Ref sig .tc := ⟨.hbm, 48, rfl⟩
abbrev main_cst_8 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.K.Base.lean ====
/-
  The kernel's schedule in closed form, and the names the body's run and the proof data are stated over.

  The grid is 8 × 8: point t = 8·i + k handles row tile i against column tile k.  The running hard-positive
  maximum and hard-negative minimum live in two scratch columns that are reset where k = 0 and folded into the
  output block where k = 7, the only points at which the output block is stored and written back.
-/
import proofs.«154702_j16406775070902_1_alg».proof.Proof.Gen.Kernel.Launch
import proofs.«154702_j16406775070902_1_alg».proof.Proof.Gen.Kernel.Skeleton
import proofs.«154702_j16406775070902_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, from the grid coordinates -/

/-- The reset branch is taken: the column-tile coordinate is 0. -/
abbrev condReset (i : grid0.Coords) : Prop :=
  (Scalar.cmpi .ne (Scalar.extui (Scalar.cmpi .eq (BitVec.ofNat 32 (i 1).val) 0#32)) 0#32) = 1#1
/-- The output branch is taken: the column-tile coordinate is 7. -/
abbrev condOut (i : grid0.Coords) : Prop := k0_cond2 i = 1#1

/-- Reset happens exactly at the points t ≡ 0 (mod 8). -/
theorem hcondReset : ∀ t : Fin cfg0.N, condReset (grid0.coords t) ↔ t.val % 8 = 0 :=
  (by decide +kernel : ∀ t : Fin grid0.N, condReset (grid0.coords t) ↔ t.val % 8 = 0)
/-- The output is stored exactly at the points t ≡ 7 (mod 8). -/
theorem hcondOut : ∀ t : Fin cfg0.N, condOut (grid0.coords t) ↔ t.val % 8 = 7 :=
  (by decide +kernel : ∀ t : Fin grid0.N, condOut (grid0.coords t) ↔ t.val % 8 = 7)

/-! ## Where the windows are idle, where the output is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Away from the last column tile the output window is idle and is not written back. -/
theorem idle4 : ∀ t : Fin cfg0.N, ¬ t.val % 8 = 7 → cfg0.idle 4 (grid0.coords t) = true := by decide +kernel
theorem noFlush4 : ∀ t : Fin cfg0.N, ¬ t.val % 8 = 7 → (cfg0.win 4).flush t = false := by decide +kernel
/-- At the last column tile it is live (and written back: `Gen.flush0_4`). -/
theorem live4 : ∀ t : Fin cfg0.N, t.val % 8 = 7 → cfg0.idle 4 (grid0.coords t) = false := by decide +kernel

/-! ## The staging memrefs the pipeline passes at a point, and the two scratch columns -/

abbrev ms0 (t : Fin cfg0.N) : Memref sig .tc .vmem S1024x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
/-- The running-maximum column. -/
abbrev scPos : Memref sig .tc .vmem S1024x1 .f32 := Memref.whole cc0_scratch0
/-- The running-minimum column. -/
abbrev scNeg : Memref sig .tc .vmem S1024x1 .f32 := Memref.whole cc0_scratch1

/-- What the region hands the body besides the windows: the two scratch columns at some contents and the generator register. -/
theorem PhiA_eq (c : Dev nD) :
    (Pipeline.ΦA spec0 c : sProp 𝕄)
      = iprop(iprop((∃ d, owns (c : Thread nD τ) scPos fullShare d) ∗ (∃ d, owns (c : Thread nD τ) scNeg fullShare d)) ∗ (∃ r, prngReg c r)) := by
  unfold Pipeline.ΦA; rw [scopedRest0_eq]; simp only [scPos, scNeg, owns_whole]; try rfl

/-! ## One step of the two running columns, and the output block, as functions of what the body loads -/

/-- The running maximum after a point: the old column against this tile's masked row maxima. -/
def posStep (xr xc : Vec F S1024x256 .f32) (tr : Vec F S1024x1 .i32) (tc : Vec F S1x1024 .i32) (p : Vec F S1024x1 .f32) : Vec F S1024x1 .f32 :=
  k0_pay1 (k0_pay8 xr xc tr tc) p
/-- The running minimum after a point. -/
def negStep (xr xc : Vec F S1024x256 .f32) (tr : Vec F S1024x1 .i32) (tc : Vec F S1x1024 .i32) (n : Vec F S1024x1 .f32) : Vec F S1024x1 .f32 :=
  k0_pay2 (k0_pay9 xr xc tr tc) n
/-- The output block from the two finished columns. -/
def outOf (p n : Vec F S1024x1 .f32) : Vec F S1024x1 .f32 := k0_pay3 p n
/-- The columns' reset values: −∞ and +∞ everywhere. -/
def posInit : Vec F S1024x1 .f32 := k0_pay4
def negInit : Vec F S1024x1 .f32 := k0_pay5

end Cert.Kernel.Hand

end
-- ==== Proof.K.Data.lean ====
/-
  The proof data of the pipeline: what each window's staging buffer holds after the body at each grid point, and the
  invariant carried between points — the two scratch columns at the running maximum and minimum of the row tile's
  masked squared distances over the column tiles met so far.

  The first two windows read ONE array (the normalised rows) at different blocks — the row tile i and the column
  tile k of point t = 8·i + k —, so each holds half of that array's share.
-/
import proofs.«154702_j16406775070902_1_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them, and the windows' blocks -/

/-- Core `c`'s buffers when the region is entered: the launch contents after the nine host operations before it
    (the rows' squares, their sums, the norms, the normalised rows, the labels laid out as a column and as a row). -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The four input blocks at a point, at their literal types: the row tile and the column tile of the normalised
    rows, the row tile's labels as a column, the column tile's labels as a row. -/
abbrev rowBlk (c : Dev nD) (t : Fin cfg0.N) : Vec F S1024x256 .f32 := iblk m c 0 t
abbrev colBlk (c : Dev nD) (t : Fin cfg0.N) : Vec F S1024x256 .f32 := iblk m c 1 t
abbrev rowLab (c : Dev nD) (t : Fin cfg0.N) : Vec F S1024x1 .i32 := iblk m c 2 t
abbrev colLab (c : Dev nD) (t : Fin cfg0.N) : Vec F S1x1024 .i32 := iblk m c 3 t

/-! ## The two running columns after each point -/

/-- The pair (running maximum, running minimum) after the body at position `n`: one step from the reset values where
    the column tile is the first (n ≡ 0 mod 8), else one step from what position n − 1 left. -/
def accAt (c : Dev nD) : (n : ℕ) → n < cfg0.N → Vec F S1024x1 .f32 × Vec F S1024x1 .f32
  | 0, hn => (posStep (rowBlk m c ⟨0, hn⟩) (colBlk m c ⟨0, hn⟩) (rowLab m c ⟨0, hn⟩) (colLab m c ⟨0, hn⟩) posInit,
              negStep (rowBlk m c ⟨0, hn⟩) (colBlk m c ⟨0, hn⟩) (rowLab m c ⟨0, hn⟩) (colLab m c ⟨0, hn⟩) negInit)
  | n + 1, hn =>
    if (n + 1) % 8 = 0 then
      (posStep (rowBlk m c ⟨n + 1, hn⟩) (colBlk m c ⟨n + 1, hn⟩) (rowLab m c ⟨n + 1, hn⟩) (colLab m c ⟨n + 1, hn⟩) posInit,
       negStep (rowBlk m c ⟨n + 1, hn⟩) (colBlk m c ⟨n + 1, hn⟩) (rowLab m c ⟨n + 1, hn⟩) (colLab m c ⟨n + 1, hn⟩) negInit)
    else
      (posStep (rowBlk m c ⟨n + 1, hn⟩) (colBlk m c ⟨n + 1, hn⟩) (rowLab m c ⟨n + 1, hn⟩) (colLab m c ⟨n + 1, hn⟩) (accAt c n (Nat.lt_of_succ_lt hn)).1,
       negStep (rowBlk m c ⟨n + 1, hn⟩) (colBlk m c ⟨n + 1, hn⟩) (rowLab m c ⟨n + 1, hn⟩) (colLab m c ⟨n + 1, hn⟩) (accAt c n (Nat.lt_of_succ_lt hn)).2)

/-- At a first column tile the columns restart. -/
theorem accAt_reset (c : Dev nD) (t : Fin cfg0.N) (h : t.val % 8 = 0) :
    accAt m c t.val t.isLt = (posStep (rowBlk m c t) (colBlk m c t) (rowLab m c t) (colLab m c t) posInit,
      negStep (rowBlk m c t) (colBlk m c t) (rowLab m c t) (colLab m c t) negInit) := by
  obtain ⟨n, hn⟩ := t
  cases n with
  | zero => rfl
  | succ n => exact (if_pos h).trans rfl

/-- At any other column tile they advance from what the point before left. -/
theorem accAt_step (c : Dev nD) (t : Fin cfg0.N) (h : ¬ t.val % 8 = 0) :
    accAt m c t.val t.isLt
      = (posStep (rowBlk m c t) (colBlk m c t) (rowLab m c t) (colLab m c t) (accAt m c (t.val - 1) (Nat.lt_of_le_of_lt (Nat.sub_le _ _) t.isLt)).1,
         negStep (rowBlk m c t) (colBlk m c t) (rowLab m c t) (colLab m c t) (accAt m c (t.val - 1) (Nat.lt_of_le_of_lt (Nat.sub_le _ _) t.isLt)).2) := by
  obtain ⟨n, hn⟩ := t
  cases n with
  | zero => exact absurd (Nat.zero_mod _) h
  | succ n => exact (if_neg h).trans rfl

/-- What the output block holds once a row tile's last column tile has been folded in. -/
def outAt (c : Dev nD) (t : Fin cfg0.N) : Vec F S1024x1 .f32 := outOf (accAt m c t.val t.isLt).1 (accAt m c t.val t.isLt).2

/-! ## The invariant between points -/

/-- Before position `n`: at the very start the scratch columns hold anything; afterwards what position n − 1 left. -/
def PhiS (c : Dev nD) : (n : ℕ) → n ≤ cfg0.N → sProp 𝕄
  | 0, _ => Pipeline.ΦA spec0 c
  | n + 1, hn => iprop(iprop(owns (c : Thread nD τ) scPos fullShare (accAt m c n hn).1 ∗ owns (c : Thread nD τ) scNeg fullShare (accAt m c n hn).2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scPos fullShare (accAt m c n hn).1 ∗ owns (c : Thread nD τ) scNeg fullShare (accAt m c n hn).2) ∗ (∃ r, prngReg c r)) := rfl

theorem PhiS_pos (c : Dev nD) (n : ℕ) (h : n ≤ cfg0.N) (hz : n ≠ 0) :
    PhiS m c n h = iprop(iprop(owns (c : Thread nD τ) scPos fullShare (accAt m c (n - 1) (by omega)).1 ∗ owns (c : Thread nD τ) scNeg fullShare (accAt m c (n - 1) (by omega)).2) ∗ (∃ r, prngReg c r)) := by
  cases n with
  | zero => exact absurd rfl hz
  | succ n => rfl

/-! ## The proof data -/

/-- On core `c`: the arrays as the region finds them; after the body each input's buffer at its block, the output's
    at the block built from the two columns; the invariant `PhiS`; the normalised rows' array shared half and half by
    the two windows that read it; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

theorem q0 (c : Dev nD) : (dats m 0 c).q 0 = fullShare.left := by dsimp only [dats]
theorem q1 (c : Dev nD) : (dats m 0 c).q 1 = fullShare.right := by dsimp only [dats]
theorem q2 (c : Dev nD) : (dats m 0 c).q 2 = fullShare := by dsimp only [dats]
theorem q3 (c : Dev nD) : (dats m 0 c).q 3 = fullShare := by dsimp only [dats]

/-- Each input window's current staging buffer holds its block at every point, fetched there or not: an unfetched
    window's block index has not moved since the point before. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## After the region -/

/-- The output array once every row tile's block has been written back. -/
def outArr (c : Dev nD) : (⟨S8192x1, .f32⟩ : BufTy).Contents (Elt F) := (dats m 0 c).arrAt 4 cfg0.N

/-- The host lines after the region: the mean of the 8192 per-row losses. -/
def meanOf (o : (⟨S8192x1, .f32⟩ : BufTy).Contents (Elt F)) : (⟨S_, .f32⟩ : BufTy).Contents (Elt F) :=
  Host.divf (Host.reduceAdd o (constant S_ .f32 0x00000000#32) reducesTo_S8192x1_S_d0_1 h_S_) (constant S_ .f32 0x46000000#32)

end Cert.Kernel.Hand

end
-- ==== Proof.K.Run.lean ====
/-
  The kernel body's three runs, one per control case the grid meets, each stated with what every buffer holds afterwards
  as an explicit function of what the body loads: the inputs' buffers untouched, the two running columns advanced by one
  tile (from their reset values where the point resets them), the output block stored only in the last case.
-/
import proofs.«154702_j16406775070902_1_alg».proof.Proof.K.Base
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer loads and stores read back

Every memory operation of this body moves a whole buffer: through the unit-stride rectangle of the buffer's own sizes at
offset zero.  A load through it of a whole memref that holds `X` reads `X`; a store through it leaves its payload,
whatever was there and whatever was stored before. -/

/-- The zero offset of a rank-two rectangle, as the constant function. -/
theorem Run.zeroOff : (![0, 0] : Fin 2 → ℕ) = fun _ => 0 := funext fun a => by fin_cases a <;> rfl

/-- A whole-buffer load of a whole memref holding `X` reads `X`. -/
theorem Run.loadWhole {S : Shape} {e : EltTy} {m : Memref sig .tc .vmem S e} (h : m.IsWhole) (X : Vec F S e)
    {off : Fin S.rank → ℕ} (hz : off = fun _ => 0) (inb : ∀ a, off a + S.size a ≤ S.size a) :
    m.view.readAt (Elt F) (Rect.unit off S.size inb).toLoadRect (h.unread X) = X := by
  rw [View.readAt_eq_ld, h.read_unread, View.ld_unit_zero hz]

/-- After a whole-buffer store, made last, the buffer reads as the stored payload. -/
theorem Run.readStoreWhole {S : Shape} {e : EltTy} (m : Memref sig .tc .vmem S e) (f : m.view.ty.Contents (Elt F))
    {off : Fin S.rank → ℕ} (hz : off = fun _ => 0) (inb : ∀ a, off a + S.size a ≤ S.size a) (w : Vec F S e)
    (L : List (View.Piece (Elt F) S e)) :
    m.view.read (Elt F) (m.view.writes (Elt F) f (⟨Rect.unit off S.size inb, w⟩ :: L)) = w := by
  rw [View.read_writes_eq_canon _ _ _ (fun y => ⟨_, List.mem_cons_self, View.mem_set_unit_zero hz inb y⟩),
    View.canon_cons_unit_zero hz]

/-- First column tile (reset taken, output not): the columns restart from −∞ / +∞; the output buffer is not touched. -/
theorem body_first (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hr : condReset i) (ho : ¬condOut i)
    (xr xc : Vec F S1024x256 .f32) (tr : Vec F S1024x1 .i32) (tc : Vec F S1x1024 .i32) (o : Vec F S1024x1 .f32) (E : Set ℕ) (K : PUnit → sProp 𝕄) :
    iprop(owns (c : Thread nD τ) arg2 fullShare xr ∗ owns (c : Thread nD τ) arg3 fullShare xc ∗ owns (c : Thread nD τ) arg4 fullShare tr ∗ owns (c : Thread nD τ) arg5 fullShare tc ∗ owns (c : Thread nD τ) arg6 fullShare o ∗ (∃ d, owns (c : Thread nD τ) arg7 fullShare d) ∗ (∃ d, owns (c : Thread nD τ) arg8 fullShare d)
        ∗ (iprop(owns (c : Thread nD τ) arg2 fullShare xr ∗ owns (c : Thread nD τ) arg3 fullShare xc ∗ owns (c : Thread nD τ) arg4 fullShare tr ∗ owns (c : Thread nD τ) arg5 fullShare tc ∗ owns (c : Thread nD τ) arg6 fullShare o
            ∗ owns (c : Thread nD τ) arg7 fullShare (posStep xr xc tr tc posInit) ∗ owns (c : Thread nD τ) arg8 fullShare (negStep xr xc tr tc negInit)) -∗ K ⟨⟩))
      ⊢ wp frame (wpE (defs₀ (F := F)) Variants.none c none) E (cc0__mining_kernel i arg2 harg2 arg3 harg3 arg4 harg4 arg5 harg5 arg6 harg6 arg7 harg7 arg8 harg8) K := by
  simp only [cc0__mining_kernel_eq_skeleton]; unfold cc0__mining_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hr | exact ho)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · -- the running maximum: the update store is the last; the column it loaded is what the reset store left
    iexists _; isplitr
    rotate_left
    · iexact H7
    · ipureintro
      rw [Run.readStoreWhole arg7 _ Run.zeroOff]
      sl_unfold_words
      rw [View.readCov_unit_zero (S := S1024x1) arg7.view Run.zeroOff, Run.loadWhole harg2 xr Run.zeroOff, Run.loadWhole harg3 xc Run.zeroOff, Run.loadWhole harg4 tr Run.zeroOff,
        Run.loadWhole harg5 tc Run.zeroOff]
      rfl
  · -- the running minimum, likewise
    iexists _; isplitr
    rotate_left
    · iexact H8
    · ipureintro
      rw [Run.readStoreWhole arg8 _ Run.zeroOff]
      sl_unfold_words
      rw [View.readCov_unit_zero (S := S1024x1) arg8.view Run.zeroOff, Run.loadWhole harg2 xr Run.zeroOff, Run.loadWhole harg3 xc Run.zeroOff, Run.loadWhole harg4 tr Run.zeroOff,
        Run.loadWhole harg5 tc Run.zeroOff]
      rfl

/-- A middle column tile (neither branch): the columns advance from what the point before left. -/
theorem body_middle (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hr : ¬condReset i) (ho : ¬condOut i)
    (xr xc : Vec F S1024x256 .f32) (tr : Vec F S1024x1 .i32) (tc : Vec F S1x1024 .i32) (o p n : Vec F S1024x1 .f32) (E : Set ℕ) (K : PUnit → sProp 𝕄) :
    iprop(owns (c : Thread nD τ) arg2 fullShare xr ∗ owns (c : Thread nD τ) arg3 fullShare xc ∗ owns (c : Thread nD τ) arg4 fullShare tr ∗ owns (c : Thread nD τ) arg5 fullShare tc ∗ owns (c : Thread nD τ) arg6 fullShare o ∗ owns (c : Thread nD τ) arg7 fullShare p ∗ owns (c : Thread nD τ) arg8 fullShare n
        ∗ (iprop(owns (c : Thread nD τ) arg2 fullShare xr ∗ owns (c : Thread nD τ) arg3 fullShare xc ∗ owns (c : Thread nD τ) arg4 fullShare tr ∗ owns (c : Thread nD τ) arg5 fullShare tc ∗ owns (c : Thread nD τ) arg6 fullShare o
            ∗ owns (c : Thread nD τ) arg7 fullShare (posStep xr xc tr tc p) ∗ owns (c : Thread nD τ) arg8 fullShare (negStep xr xc tr tc n)) -∗ K ⟨⟩))
      ⊢ wp frame (wpE (defs₀ (F := F)) Variants.none c none) E (cc0__mining_kernel i arg2 harg2 arg3 harg3 arg4 harg4 arg5 harg5 arg6 harg6 arg7 harg7 arg8 harg8) K := by
  simp only [cc0__mining_kernel_eq_skeleton]; unfold cc0__mining_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8
  sl_exec (disch := first | exact hr | exact ho)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr
    rotate_left
    · iexact H7
    · ipureintro
      rw [Run.readStoreWhole arg7 _ Run.zeroOff, Run.loadWhole harg2 xr Run.zeroOff, Run.loadWhole harg3 xc Run.zeroOff, Run.loadWhole harg4 tr Run.zeroOff,
        Run.loadWhole harg5 tc Run.zeroOff, Run.loadWhole harg7 p Run.zeroOff]
      rfl
  · iexists _; isplitr
    rotate_left
    · iexact H8
    · ipureintro
      rw [Run.readStoreWhole arg8 _ Run.zeroOff, Run.loadWhole harg2 xr Run.zeroOff, Run.loadWhole harg3 xc Run.zeroOff, Run.loadWhole harg4 tr Run.zeroOff,
        Run.loadWhole harg5 tc Run.zeroOff, Run.loadWhole harg8 n Run.zeroOff]
      rfl

/-- The last column tile (output taken, reset not): the columns advance and the output block is stored from them. -/
theorem body_last (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hr : ¬condReset i) (ho : condOut i)
    (xr xc : Vec F S1024x256 .f32) (tr : Vec F S1024x1 .i32) (tc : Vec F S1x1024 .i32) (p n : Vec F S1024x1 .f32) (E : Set ℕ) (K : PUnit → sProp 𝕄) :
    iprop(owns (c : Thread nD τ) arg2 fullShare xr ∗ owns (c : Thread nD τ) arg3 fullShare xc ∗ owns (c : Thread nD τ) arg4 fullShare tr ∗ owns (c : Thread nD τ) arg5 fullShare tc ∗ (∃ d, owns (c : Thread nD τ) arg6 fullShare d) ∗ owns (c : Thread nD τ) arg7 fullShare p ∗ owns (c : Thread nD τ) arg8 fullShare n
        ∗ (iprop(owns (c : Thread nD τ) arg2 fullShare xr ∗ owns (c : Thread nD τ) arg3 fullShare xc ∗ owns (c : Thread nD τ) arg4 fullShare tr ∗ owns (c : Thread nD τ) arg5 fullShare tc ∗ owns (c : Thread nD τ) arg6 fullShare (outOf (posStep xr xc tr tc p) (negStep xr xc tr tc n))
            ∗ owns (c : Thread nD τ) arg7 fullShare (posStep xr xc tr tc p) ∗ owns (c : Thread nD τ) arg8 fullShare (negStep xr xc tr tc n)) -∗ K ⟨⟩))
      ⊢ wp frame (wpE (defs₀ (F := F)) Variants.none c none) E (cc0__mining_kernel i arg2 harg2 arg3 harg3 arg4 harg4 arg5 harg5 arg6 harg6 arg7 harg7 arg8 harg8) K := by
  simp only [cc0__mining_kernel_eq_skeleton]; unfold cc0__mining_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  obtain rfl := harg2.eq_unread hf2; obtain rfl := harg3.eq_unread hf3; obtain rfl := harg4.eq_unread hf4
  obtain rfl := harg5.eq_unread hf5; obtain rfl := harg7.eq_unread hf7; obtain rfl := harg8.eq_unread hf8
  sl_exec (disch := first | exact hr | exact ho)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · -- the output block: stored from the two columns as the update stores of this same point left them
    iexists _; isplitr
    rotate_left
    · iexact H6
    · ipureintro
      rw [Run.readStoreWhole arg6 _ Run.zeroOff]
      sl_unfold_words
      rw [View.readCov_unit_zero (S := S1024x1) arg7.view Run.zeroOff, View.readCov_unit_zero (S := S1024x1) arg8.view Run.zeroOff,
        Run.loadWhole harg2 xr Run.zeroOff, Run.loadWhole harg3 xc Run.zeroOff, Run.loadWhole harg4 tr Run.zeroOff,
        Run.loadWhole harg5 tc Run.zeroOff, Run.loadWhole harg7 p Run.zeroOff, Run.loadWhole harg8 n Run.zeroOff]
      rfl
  isplitl [H7]
  · iexists _; isplitr
    rotate_left
    · iexact H7
    · ipureintro
      sl_unfold_words
      rw [Run.readStoreWhole arg7 _ Run.zeroOff, Run.loadWhole harg2 xr Run.zeroOff, Run.loadWhole harg3 xc Run.zeroOff, Run.loadWhole harg4 tr Run.zeroOff,
        Run.loadWhole harg5 tc Run.zeroOff, Run.loadWhole harg7 p Run.zeroOff]
      rfl
  · iexists _; isplitr
    rotate_left
    · iexact H8
    · ipureintro
      sl_unfold_words
      rw [Run.readStoreWhole arg8 _ Run.zeroOff, Run.loadWhole harg2 xr Run.zeroOff, Run.loadWhole harg3 xc Run.zeroOff, Run.loadWhole harg4 tr Run.zeroOff,
        Run.loadWhole harg5 tc Run.zeroOff, Run.loadWhole harg8 n Run.zeroOff]
      rfl

end Cert.Kernel.Hand

end
-- ==== Proof.K.Oblig.lean ====
/-
  The body obligation: at every grid point the kernel body, handed each window's current staging buffer at what it then
  holds and the two scratch columns as the point before left them, runs to the buffers at what the proof data says it
  leaves — the inputs' blocks in place, the columns one tile further, the output block stored where the column tile is
  the last and left as found elsewhere.
-/
import proofs.«154702_j16406775070902_1_alg».proof.Proof.K.Data
import proofs.«154702_j16406775070902_1_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]

set_option maxHeartbeats 4000000 in
/-- The body at any point: the closed forms say which of the three control cases the point is in; that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  have hN : t.val < 64 := lt_of_lt_of_eq t.isLt (show cfg0.N = 64 from N_0)
  by_cases h0 : t.val % 8 = 0
  · have h7 : ¬ t.val % 8 = 7 := by omega
    rw [Dat.leavesExact_idle (dats m 0 c) 4 t (idle4 t h7) (noFlush4 t h7), accAt_reset m c t h0]
    by_cases hz : t.val = 0
    · rw [PhiS_castSucc m c t, PhiS_zero m c _ _ hz, PhiA_eq]
      iintro ⟨⟨⟨HP, HN⟩, Hg⟩, Ho, ⟨%d0, H0⟩, ⟨%d1, H1⟩, ⟨%d2, H2⟩, ⟨%d3, H3⟩, ⟨%d4, H4⟩⟩
      iapply (body_first c (grid0.coords t) _ _ _ _ _ _ _ _ _ _ _ _ _ _ ((hcondReset t).mpr h0) (fun h => h7 ((hcondOut t).mp h))
        (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexact H4
      isplitl [HP]; · iexact HP
      isplitl [HN]; · iexact HN
      iintro ⟨H0, H1, H2, H3, H4, HP, HN⟩
      isplitl [HP HN Hg]
      · isplitl [HP HN]
        · isplitl [HP] <;> iassumption
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HP, HN⟩, Hg⟩, Ho, ⟨%d0, H0⟩, ⟨%d1, H1⟩, ⟨%d2, H2⟩, ⟨%d3, H3⟩, ⟨%d4, H4⟩⟩
      iapply (body_first c (grid0.coords t) _ _ _ _ _ _ _ _ _ _ _ _ _ _ ((hcondReset t).mpr h0) (fun h => h7 ((hcondOut t).mp h))
        (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexact H4
      isplitl [HP]; · iexists _; iexact HP
      isplitl [HN]; · iexists _; iexact HN
      iintro ⟨H0, H1, H2, H3, H4, HP, HN⟩
      isplitl [HP HN Hg]
      · isplitl [HP HN]
        · isplitl [HP] <;> iassumption
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [PhiS_castSucc m c t, PhiS_pos m c _ _ hz, accAt_step m c t h0]
    by_cases h7 : t.val % 8 = 7
    · rw [show (dats m 0 c).leavesExact 4 t = owns (c : Thread nD τ) (ms4 t) fullShare ((dats m 0 c).after 4 t) from by
        unfold Dat.leavesExact; rw [live4 t h7], after4]
      unfold outAt; rw [accAt_step m c t h0]
      iintro ⟨⟨⟨HP, HN⟩, Hg⟩, Ho, ⟨%d0, H0⟩, ⟨%d1, H1⟩, ⟨%d2, H2⟩, ⟨%d3, H3⟩, ⟨%d4, H4⟩⟩
      iapply (body_last c (grid0.coords t) _ _ _ _ _ _ _ _ _ _ _ _ _ _ (fun h => h0 ((hcondReset t).mp h)) ((hcondOut t).mpr h7)
        (iblk m c 0 t) (iblk m c 1 t) (iblk m c 2 t) (iblk m c 3 t) _ _ Set.univ _)
      isplitl [H0]; · iexact H0
      isplitl [H1]; · iexact H1
      isplitl [H2]; · iexact H2
      isplitl [H3]; · iexact H3
      isplitl [H4]; · iexists _; iexact H4
      isplitl [HP]; · iexact HP
      isplitl [HN]; · iexact HN
      iintro ⟨H0, H1, H2, H3, H4, HP, HN⟩
      isplitl [HP HN Hg]
      · isplitl [HP HN]
        · isplitl [HP] <;> iassumption
        iexact Hg
      isplitl [Ho]; · iexact Ho
      isplitl [H0]; · iexact H0
      isplitl [H1]; · iexact H1
      isplitl [H2]; · iexact H2
      isplitl [H3]; · iexact H3
      iexact H4
    · rw [Dat.leavesExact_idle (dats m 0 c) 4 t (idle4 t h7) (noFlush4 t h7)]
      iintro ⟨⟨⟨HP, HN⟩, Hg⟩, Ho, ⟨%d0, H0⟩, ⟨%d1, H1⟩, ⟨%d2, H2⟩, ⟨%d3, H3⟩, ⟨%d4, H4⟩⟩
      iapply (body_middle c (grid0.coords t) _ _ _ _ _ _ _ _ _ _ _ _ _ _ (fun h => h0 ((hcondReset t).mp h)) (fun h => h7 ((hcondOut t).mp h))
        (iblk m c 0 t) (iblk m c 1 t) (iblk m c 2 t) (iblk m c 3 t) _ _ _ Set.univ _)
      isplitl [H0]; · iexact H0
      isplitl [H1]; · iexact H1
      isplitl [H2]; · iexact H2
      isplitl [H3]; · iexact H3
      isplitl [H4]; · iexact H4
      isplitl [HP]; · iexact HP
      isplitl [HN]; · iexact HN
      iintro ⟨H0, H1, H2, H3, H4, HP, HN⟩
      isplitl [HP HN Hg]
      · isplitl [HP HN]
        · isplitl [HP] <;> iassumption
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Launch.lean ====
/-
  The run of the whole program: nine host operations, the kernel region, four host operations.

  The region reads the normalised rows through two windows, so at its entry that array's full share is split in two
  halves, one per window; the output array comes back at what the write-backs left in it, and the four operations
  after the region take its mean.
-/
import proofs.«154702_j16406775070902_1_alg».proof.Proof.K.Data
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- Core `c`'s buffers at launch, as the operations' valuation. -/
abbrev Vl (c : Dev nD) : Valuation τ sig (Elt F) := fun b => m (c, b)

/-- Every buffer the nine operations before the region write is one of their nine results. -/
theorem hostOps0_writes : (hostOps0 (F := F)).Forall fun op =>
    op.writes ⊆ (([main_v0, main_cst, main_v1, main_v2, main_v3, main_v4, main_v5, main_v6, main_v7] : List (Ref sig .tc)).map (Proc.devRef (τ := τ) .tc)).toFinset := by
  refine ⟨?_, ?_, ?_, ?_, ?_, ?_, ?_, ?_, ?_⟩ <;>
    exact Finset.singleton_subset_iff.mpr (List.mem_toFinset.mpr (List.mem_map_of_mem (by decide)))

/-- Neither argument is among them: both reach the region as launched. -/
theorem V_arg0 (c : Dev nD) : V m c main_arg0 = m ((c : Thread nD τ).loc main_arg0) :=
  StableHlo.after_of_writes_sub hostOps0 (Vl m c) hostOps0_writes (by decide)
theorem V_arg1 (c : Dev nD) : V m c main_arg1 = m ((c : Thread nD τ).loc main_arg1) :=
  StableHlo.after_of_writes_sub hostOps0 (Vl m c) hostOps0_writes (by decide)

/-- The set the operations before the region run within: the device buffers of the TensorCore's unscoped references. -/
def ucRefs : Finset (DevRef τ sig) :=
  (Finset.univ.filter fun b : Ref sig .tc => ¬ b.isScoped).map ⟨Proc.devRef .tc, Proc.devRef_injective _⟩

omit [FloatOps F] in
/-- That set held at a valuation is the launch's unscoped buffers at it: the same points-to's, indexed by reference. -/
theorem unscopedBufs_held (c : Dev nD) (W : Valuation τ sig (Elt F)) :
    (unscopedBufs c (fun b => W b) : sProp 𝕄) = StableHlo.held (c : Thread nD τ) ucRefs W := by
  unfold unscopedBufs StableHlo.held ucRefs
  rw [bigSep_map]
  rfl

omit [FloatOps F] in
/-- A host operation names no scoped buffer: one whose buffers are TensorCore references stays within the set. -/
theorem sub_ucRefs (op : HloOp τ sig (Elt F)) (h : op.bufs ⊆ StableHlo.tcRefs τ sig) : op.bufs ⊆ ucRefs := fun b hb => by
  obtain ⟨r, -, rfl⟩ := Finset.mem_map.mp (h hb)
  exact Finset.mem_map_of_mem _ (Finset.mem_filter.mpr ⟨Finset.mem_univ r, fun hs => Bool.false_ne_true ((op.no_scoped _ hb).symm.trans hs)⟩)

/-- No operation before the region allocates. -/
theorem hostOps0_fresh : ∀ op ∈ (hostOps0 (F := F)), op.fresh = ∅ := by
  intro op hop
  simp only [List.mem_cons, List.mem_nil_iff, or_false] at hop
  rcases hop with rfl | rfl | rfl | rfl | rfl | rfl | rfl | rfl | rfl <;> rfl

/-! ## The host operations after the region -/

/-- The five buffers the four operations after the region touch: the output array, two constants, the sum, the mean. -/
def tailList : List (Ref sig .tc) := [main_v8, main_cst_0, main_v9, main_cst_1, main_v10]
def tailRefs : Finset (DevRef τ sig) := tailList.toFinset.map ⟨Proc.devRef .tc, Proc.devRef_injective _⟩

theorem mem_tailRefs {x : Ref sig .tc} (hx : x ∈ tailList) : Proc.devRef (τ := τ) .tc x ∈ tailRefs :=
  Finset.mem_map_of_mem _ (List.mem_toFinset.mpr hx)

theorem tail_sub : ∀ op ∈ (hostOps1 (F := F)), op.bufs ⊆ tailRefs := by
  intro op hop
  simp only [List.mem_cons, List.mem_nil_iff, or_false] at hop
  rcases hop with rfl | rfl | rfl | rfl
  · exact Finset.singleton_subset_iff.mpr (mem_tailRefs (by decide))
  · rw [StableHlo.binary_bufs]
    exact Finset.insert_subset_iff.mpr ⟨mem_tailRefs (by decide), Finset.insert_subset_iff.mpr ⟨mem_tailRefs (by decide), Finset.singleton_subset_iff.mpr (mem_tailRefs (by decide))⟩⟩
  · exact Finset.singleton_subset_iff.mpr (mem_tailRefs (by decide))
  · rw [StableHlo.binary_bufs]
    exact Finset.insert_subset_iff.mpr ⟨mem_tailRefs (by decide), Finset.insert_subset_iff.mpr ⟨mem_tailRefs (by decide), Finset.singleton_subset_iff.mpr (mem_tailRefs (by decide))⟩⟩

/-- Nor does any after it. -/
theorem hostOps1_fresh : ∀ op ∈ (hostOps1 (F := F)), op.fresh = ∅ := by
  intro op hop
  simp only [List.mem_cons, List.mem_nil_iff, or_false] at hop
  rcases hop with rfl | rfl | rfl | rfl <;> rfl

/-- The buffers when the region is left: as it found them, but for the output array, which holds what the write-backs
    left in it. -/
def Vmid (c : Dev nD) : Valuation τ sig (Elt F) := Function.update (V0 m c) (Proc.devRef .tc main_v8) (outArr m c)

theorem Vmid_v8 (c : Dev nD) : Vmid m c (Proc.devRef .tc main_v8) = outArr m c := by
  unfold Vmid; rw [Function.update_self]

theorem Vmid_ne (c : Dev nD) (b : Ref sig .tc) (h : b ≠ main_v8) : Vmid m c (Proc.devRef .tc b) = V m c b := by
  unfold Vmid; rw [Function.update_of_ne (StableHlo.devRef_ne_of_ne h)]

/-- The result buffer after the four operations is the mean of the output array. -/
theorem after_v10 (c : Dev nD) : StableHlo.after hostOps1 (Vmid m c) (Proc.devRef .tc main_v10) = meanOf (outArr m c) := by
  show StableHlo.after hostOps1 (Vmid m c) (Proc.devRef .tc main_v10) = _
  after_results
  unfold meanOf
  rw [Vmid_v8]

omit [FloatOps F] in
/-- The five held at a valuation, one by one. -/
theorem held_tail (c : Dev nD) (W : Valuation τ sig (Elt F)) :
    (StableHlo.held (c : Thread nD τ) tailRefs W : sProp 𝕄)
      = iprop((((c : Thread nD τ).loc main_v8) ↦{fullShare} W (Proc.devRef .tc main_v8)) ∗ (((c : Thread nD τ).loc main_cst_0) ↦{fullShare} W (Proc.devRef .tc main_cst_0))
          ∗ (((c : Thread nD τ).loc main_v9) ↦{fullShare} W (Proc.devRef .tc main_v9)) ∗ (((c : Thread nD τ).loc main_cst_1) ↦{fullShare} W (Proc.devRef .tc main_cst_1))
          ∗ (((c : Thread nD τ).loc main_v10) ↦{fullShare} W (Proc.devRef .tc main_v10))) := by
  unfold StableHlo.held tailRefs
  rw [bigSep_map, bigSep_eq_bigSepL tailList (by decide)]
  rfl

/-! ## The windows' arrays -/

omit [FloatOps F] in
/-- The distinct buffers behind the five windows are four: the first two windows read one array. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v5) ↦{fullShare} W main_v5) ∗ (((c : Thread nD τ).loc main_v6) ↦{fullShare} W main_v6)
          ∗ (((c : Thread nD τ).loc main_v7) ↦{fullShare} W main_v7) ∗ (((c : Thread nD τ).loc main_v8) ↦{fullShare} W main_v8)) := by
  unfold Pipeline.arrBufs
  rw [bigSep_eq_bigSepL_of_eq [main_v5, main_v6, main_v7, main_v8] (by decide) (by decide)]
  rfl

/-- The pipeline's arrays, window by window: the normalised rows at half the full share twice, the two label arrays and
    the output array at the full share. -/
theorem arrays_chain (c : Dev nD) (A : (w : Fin cfg0.W) → Buf (Elt F) ((cfg0.win w).arr.view.loc (c : Thread nD τ))) :
    ((dats m 0 c).arrays A : sProp 𝕄)
      = iprop((((c : Thread nD τ).loc main_v5) ↦{fullShare.left} A 0) ∗ (((c : Thread nD τ).loc main_v5) ↦{fullShare.right} A 1)
          ∗ (((c : Thread nD τ).loc main_v6) ↦{fullShare} A 2) ∗ (((c : Thread nD τ).loc main_v7) ↦{fullShare} A 3)
          ∗ (((c : Thread nD τ).loc main_v8) ↦{fullShare} A 4)) := by
  unfold Dat.arrays
  rw [bigSep_W0, (arr_whole0 0).set_eq_univ, (arr_whole0 2).set_eq_univ, (arr_whole0 3).set_eq_univ, (arr_whole0 4).set_eq_univ]
  rw [show (dats m 0 c).share 0 = fullShare.left from (if_neg (by decide)).trans (q0 m c),
    show (dats m 0 c).share 1 = fullShare.right from (if_neg (by decide)).trans (q1 m c),
    show (dats m 0 c).share 2 = fullShare from (if_neg (by decide)).trans (q2 m c),
    show (dats m 0 c).share 3 = fullShare from (if_neg (by decide)).trans (q3 m c),
    show (dats m 0 c).share 4 = fullShare from if_pos (by decide)]

/-! ## The segments -/

/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm
abbrev 𝒱₀ : Variants := Variants.none

/-- What rides beside the buffers through the first host operations: the core's `owes` and its generator register
    (the region's invariant wants the register). -/
abbrev R (c : Dev nD) : sProp 𝕄 :=
  iprop((∃ W, owes (c : Thread nD τ) (0 : CellTallies nD τ sig Unit) W) ∗ ∃ r, prngReg c r)

/-- Both arguments as the region found them. -/
abbrev args (c : Dev nD) : sProp 𝕄 :=
  iprop((((c : Thread nD τ).loc main_arg0) ↦{fullShare} V m c main_arg0) ∗ (((c : Thread nD τ).loc main_arg1) ↦{fullShare} V m c main_arg1))

/-- What rides through the last host operations: the arguments and the core's `owes`. -/
abbrev R1 (c : Dev nD) : sProp 𝕄 :=
  iprop(args m c ∗ ∃ W, owes (c : Thread nD τ) (0 : CellTallies nD τ sig Unit) W)

/-- THE FIRST HOST SEGMENT: nine operations over the unscoped buffers. -/
def seg0 : Pipeline.HostSeg (Name := ℕ) (U := UR sig nD τ) (pcfgs (F := F)) defs₀ 𝒱₀ L lv :=
  Pipeline.HostSeg.ofOps _ _ _ _ _ ucRefs hostOps0 (fun op h => sub_ucRefs op ((List.forall_iff_forall_mem.mp hostOps0_sub) op h))
    hostOps0_fresh (Vl m) R

/-- THE LAST HOST SEGMENT: four operations over the five buffers they touch, the arguments riding along. -/
def seg1 : Pipeline.HostSeg (Name := ℕ) (U := UR sig nD τ) (pcfgs (F := F)) defs₀ 𝒱₀ L lv :=
  Pipeline.HostSeg.ofOps _ _ _ _ _ tailRefs hostOps1 tail_sub hostOps1_fresh (Vmid m) (R1 m)

/-- The last thread state: the five buffers after the four operations, and the arguments. -/
abbrev Tₙ (c : Dev nD) : sProp 𝕄 :=
  iprop(StableHlo.held (c : Thread nD τ) tailRefs (StableHlo.after hostOps1 (Vmid m c)) ∗ args m c)

set_option backward.isDefEq.respectTransparency.types false in
/-- THE REGION, entered from what the first host operations left. Of the unscoped buffers the four behind the windows
    go to the pipeline — the normalised rows' full share as two halves, one per window that reads them —, the rest
    bypasses; the generator register enters the invariant, which at the first point is the scratch columns at any
    contents and that register, and at the last the columns at what the last point left. At the exit the output array
    at its final contents joins the four buffers of the bypassing rest the last host operations touch, and both
    arguments ride on. -/
def reg0 (hbody : ∀ c, Pipeline.BodyObligationLoose (dats m 0 c) (defs₀ (F := F)) Variants.none () Set.univ) :
    Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody := hbody
  hwaits := Pipeline.hwaits_of_owed_zero _ _ _ _ L lv 0 fun _ _ => rfl
  pre c := iprop(StableHlo.held (c : Thread nD τ) ucRefs (StableHlo.after hostOps0 (Vl m c)) ∗ R c)
  post c := iprop(StableHlo.held (c : Thread nD τ) tailRefs (Vmid m c) ∗ R1 m c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [show StableHlo.held (c : Thread nD τ) ucRefs (StableHlo.after hostOps0 (Vl m c)) = unscopedBufs c (V m c) from (unscopedBufs_held c _).symm,
      Pipeline.unscopedBufs_split₀ cfgs 0 winFacts₀0.arr_unscoped c (V m c), arrBufs_eq, arrays_chain]
    iintro ⟨⟨⟨⟨H5, H6, H7, H8⟩, Hrest⟩, HO, Hp⟩, -, -⟩
    ihave H5 := (pointsTo_share (PosShare.mem_left_op_right fullShare)).1 $$ H5
    icases H5 with ⟨H5l, H5r⟩
    imodintro
    isplitl [H5l H5r H6 H7 H8]
    · isplitl [H5l]; · iexact H5l
      isplitl [H5r]; · iexact H5r
      isplitl [H6]; · iexact H6
      isplitl [H7]; · iexact H7
      iexact H8
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m 0 c).Φ 0 = Pipeline.ΦA spec0 c from rfl]
    unfold Pipeline.ΦA
    iintro ⟨Hp, -, Hr⟩
    isplitl [Hr]; · iexact Hr
    iexact Hp
  hout c := by
    have h : (dats m 0 c).Φ (Fin.last cfg0.N) ⊢ (Pipeline.ΦA spec0 c : sProp 𝕄) := by
      rw [PhiA_eq, show (dats m 0 c).Φ (Fin.last cfg0.N) = PhiS m c cfg0.N (Nat.le_refl _) from rfl, PhiS_pos m c cfg0.N (Nat.le_refl _) (by decide)]
      iintro ⟨⟨Hp, Hn⟩, Hr⟩
      isplitr [Hr]
      · isplitl [Hp]
        · iexists _; iexact Hp
        · iexists _; iexact Hn
      · iexact Hr
    refine h.trans ?_
    rw [Pipeline.ownSems0_none]; unfold Pipeline.ΦA
    iintro ⟨Hr, Hp⟩
    isplitl [Hp]; · iexact Hp
    isplitr; · iempintro
    iexact Hr
  hexit c := by
    rw [arrays_chain, unscopedRest0_eq, held_tail, Vmid_v8, Vmid_ne m c main_cst_0 (by decide), Vmid_ne m c main_v9 (by decide),
      Vmid_ne m c main_cst_1 (by decide), Vmid_ne m c main_v10 (by decide)]
    iintro ⟨⟨-, -, -, -, H8⟩, HO, -, ⟨Ha0, Ha1, -, -, -, -, -, -, Hc0, H9, Hc1, H10⟩⟩
    imodintro
    isplitl [H8 Hc0 H9 Hc1 H10]
    · isplitl [H8]; · iexact H8
      isplitl [Hc0]; · iexact Hc0
      isplitl [H9]; · iexact H9
      isplitl [Hc1]; · iexact Hc1
      iexact H10
    isplitl [Ha0 Ha1]
    · isplitl [Ha0]; · iexact Ha0
      iexact Ha1
    unfold Pipeline.Dat.owesAt Pipeline.owesWithin
    icases HO with ⟨%W, -, HO⟩; iexists W; iexact HO

/-- @main as the list of the three. -/
abbrev segs (hbody : ∀ c, Pipeline.BodyObligationLoose (dats m 0 c) (defs₀ (F := F)) Variants.none () Set.univ) :
    List (Pipeline.Seg (pcfgs (F := F)) adm (dats m) () defs₀ 𝒱₀ L lv) := [.host (seg0 m), .region (reg0 m hbody), .host (seg1 m)]

set_option backward.isDefEq.respectTransparency.types false in
/-- From any memory with zero counters every weakly fair execution of the program terminates, nothing faulting; the
    result is the mean of the output array the pipeline's write-backs produce, and both arguments end as launched. -/
theorem run_main (hbody : ∀ c, Pipeline.BodyObligationLoose (dats m 0 c) (defs₀ (F := F)) Variants.none () Set.univ) :
    θ_run defs (onTc (τ := τ) (main (F := F))) ⟨m, fun _ => 0, ρ⟩ (fun r => ∀ c : Dev nD,
      r.2.mem ((c.tc : Thread nD τ).loc main_v10) = meanOf (outArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (dats m) () cellOf_inj emb₁ defs₀ 𝒱₀ L lv m ρ main (segs m hbody)
    (fun c Q => by rw [main_segs adm (dats m) () 𝒱₀ L lv (seg0 m) (seg1 m) (reg0 m hbody) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (Vl m c) ∗ R c)) (Tₙ := Tₙ m)
    (hch := ⟨fun _ => .rfl, fun _ => .rfl, fun _ => .rfl, fun c => by
      show iprop(StableHlo.held (c : Thread nD τ) tailRefs (StableHlo.after hostOps1 (Vmid m c)) ∗ R1 m c) ⊢ _
      iintro ⟨Hh, Ha, HO⟩
      isplitr [HO]
      · isplitl [Hh]; · iexact Hh
        iexact Ha
      · iexact HO⟩)
    (hinit := by
      refine Pipeline.initEach L lv fun c => ?_
      rw [show unscopedBufs c (fun b => m ((c : Thread nD τ).loc b)) = StableHlo.held (c : Thread nD τ) ucRefs (Vl m c) from unscopedBufs_held c (Vl m c)]
      iintro ⟨⟨Hh, -, HO, -, Hp, -⟩, -⟩
      imodintro
      isplitl [Hh]; · iexact Hh
      isplitl [HO]; · iexists ∅; iexact HO
      iexists _; iexact Hp)
    (QY := fun c s => s.mem ((c.tc : Thread nD τ).loc main_v10) = meanOf (outArr m c)
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => by
      dsimp only [Tₙ, args]; rw [held_tail, after_v10, V_arg0, V_arg1]
      iintro ⟨⟨⟨-, -, -, -, H10⟩, Ha0, Ha1⟩, HSI⟩
      icombine HSI H10 gives %h10
      icombine HSI Ha0 gives %h0
      icombine HSI Ha1 gives %h1
      imodintro
      isplitr
      · ipureintro; exact ⟨Buf.eq_of_forall_mem_univ h10, Buf.eq_of_forall_mem_univ h0, Buf.eq_of_forall_mem_univ h1⟩
      iexact HSI)
    (hQ := fun _ h => h)

end Cert.Kernel.Hand

end
-- ==== Proof.KI.Base.lean ====
/-
  The kernel's schedule in closed form, and the names the body's run and the proof data are stated over.

  The grid is 8 × 8: point t = 8·i + k handles row tile i against column tile k.  The running hard-positive
  maximum and hard-negative minimum live in two scratch columns that are reset where k = 0 and folded into the
  output block where k = 7, the only points at which the output block is stored and written back.
-/
import proofs.«154702_j16406775070902_1_alg».proof.Proof.Gen.KernelIdeal.Launch
import proofs.«154702_j16406775070902_1_alg».proof.Proof.Gen.KernelIdeal.Skeleton
import proofs.«154702_j16406775070902_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, from the grid coordinates -/

/-- The reset branch is taken: the column-tile coordinate is 0. -/
abbrev condReset (i : grid0.Coords) : Prop :=
  (Scalar.cmpi .ne (Scalar.extui (Scalar.cmpi .eq (BitVec.ofNat 32 (i 1).val) 0#32)) 0#32) = 1#1
/-- The output branch is taken: the column-tile coordinate is 7. -/
abbrev condOut (i : grid0.Coords) : Prop := k0_cond2 i = 1#1

/-- Reset happens exactly at the points t ≡ 0 (mod 8). -/
theorem hcondReset : ∀ t : Fin cfg0.N, condReset (grid0.coords t) ↔ t.val % 8 = 0 :=
  (by decide +kernel : ∀ t : Fin grid0.N, condReset (grid0.coords t) ↔ t.val % 8 = 0)
/-- The output is stored exactly at the points t ≡ 7 (mod 8). -/
theorem hcondOut : ∀ t : Fin cfg0.N, condOut (grid0.coords t) ↔ t.val % 8 = 7 :=
  (by decide +kernel : ∀ t : Fin grid0.N, condOut (grid0.coords t) ↔ t.val % 8 = 7)

/-! ## Where the windows are idle, where the output is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Away from the last column tile the output window is idle and is not written back. -/
theorem idle4 : ∀ t : Fin cfg0.N, ¬ t.val % 8 = 7 → cfg0.idle 4 (grid0.coords t) = true := by decide +kernel
theorem noFlush4 : ∀ t : Fin cfg0.N, ¬ t.val % 8 = 7 → (cfg0.win 4).flush t = false := by decide +kernel
/-- At the last column tile it is live (and written back: `Gen.flush0_4`). -/
theorem live4 : ∀ t : Fin cfg0.N, t.val % 8 = 7 → cfg0.idle 4 (grid0.coords t) = false := by decide +kernel

/-! ## The staging memrefs the pipeline passes at a point, and the two scratch columns -/

abbrev ms0 (t : Fin cfg0.N) : Memref sig .tc .vmem S1024x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
/-- The running-maximum column. -/
abbrev scPos : Memref sig .tc .vmem S1024x1 .f32 := Memref.whole cc0_scratch0
/-- The running-minimum column. -/
abbrev scNeg : Memref sig .tc .vmem S1024x1 .f32 := Memref.whole cc0_scratch1

/-- What the region hands the body besides the windows: the two scratch columns at some contents and the generator register. -/
theorem PhiA_eq (c : Dev nD) :
    (Pipeline.ΦA spec0 c : sProp 𝕄)
      = iprop(iprop((∃ d, owns (c : Thread nD τ) scPos fullShare d) ∗ (∃ d, owns (c : Thread nD τ) scNeg fullShare d)) ∗ (∃ r, prngReg c r)) := by
  unfold Pipeline.ΦA; rw [scopedRest0_eq]; simp only [scPos, scNeg, owns_whole]; try rfl

/-! ## One step of the two running columns, and the output block, as functions of what the body loads -/

/-- The running maximum after a point: the old column against this tile's masked row maxima. -/
def posStep (xr xc : Vec F S1024x256 .f32) (tr : Vec F S1024x1 .i32) (tc : Vec F S1x1024 .i32) (p : Vec F S1024x1 .f32) : Vec F S1024x1 .f32 :=
  k0_pay1 (k0_pay8 xr xc tr tc) p
/-- The running minimum after a point. -/
def negStep (xr xc : Vec F S1024x256 .f32) (tr : Vec F S1024x1 .i32) (tc : Vec F S1x1024 .i32) (n : Vec F S1024x1 .f32) : Vec F S1024x1 .f32 :=
  k0_pay2 (k0_pay9 xr xc tr tc) n
/-- The output block from the two finished columns. -/
def outOf (p n : Vec F S1024x1 .f32) : Vec F S1024x1 .f32 := k0_pay3 p n
/-- The columns' reset values: −∞ and +∞ everywhere. -/
def posInit : Vec F S1024x1 .f32 := k0_pay4
def negInit : Vec F S1024x1 .f32 := k0_pay5

end Cert.KernelIdeal.Hand

end
-- ==== Proof.KI.Data.lean ====
/-
  The proof data of the pipeline: what each window's staging buffer holds after the body at each grid point, and the
  invariant carried between points — the two scratch columns at the running maximum and minimum of the row tile's
  masked squared distances over the column tiles met so far.

  The first two windows read ONE array (the normalised rows) at different blocks — the row tile i and the column
  tile k of point t = 8·i + k —, so each holds half of that array's share.
-/
import proofs.«154702_j16406775070902_1_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them, and the windows' blocks -/

/-- Core `c`'s buffers when the region is entered: the launch contents after the nine host operations before it
    (the rows' squares, their sums, the norms, the normalised rows, the labels laid out as a column and as a row). -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The four input blocks at a point, at their literal types: the row tile and the column tile of the normalised
    rows, the row tile's labels as a column, the column tile's labels as a row. -/
abbrev rowBlk (c : Dev nD) (t : Fin cfg0.N) : Vec F S1024x256 .f32 := iblk m c 0 t
abbrev colBlk (c : Dev nD) (t : Fin cfg0.N) : Vec F S1024x256 .f32 := iblk m c 1 t
abbrev rowLab (c : Dev nD) (t : Fin cfg0.N) : Vec F S1024x1 .i32 := iblk m c 2 t
abbrev colLab (c : Dev nD) (t : Fin cfg0.N) : Vec F S1x1024 .i32 := iblk m c 3 t

/-! ## The two running columns after each point -/

/-- The pair (running maximum, running minimum) after the body at position `n`: one step from the reset values where
    the column tile is the first (n ≡ 0 mod 8), else one step from what position n − 1 left. -/
def accAt (c : Dev nD) : (n : ℕ) → n < cfg0.N → Vec F S1024x1 .f32 × Vec F S1024x1 .f32
  | 0, hn => (posStep (rowBlk m c ⟨0, hn⟩) (colBlk m c ⟨0, hn⟩) (rowLab m c ⟨0, hn⟩) (colLab m c ⟨0, hn⟩) posInit,
              negStep (rowBlk m c ⟨0, hn⟩) (colBlk m c ⟨0, hn⟩) (rowLab m c ⟨0, hn⟩) (colLab m c ⟨0, hn⟩) negInit)
  | n + 1, hn =>
    if (n + 1) % 8 = 0 then
      (posStep (rowBlk m c ⟨n + 1, hn⟩) (colBlk m c ⟨n + 1, hn⟩) (rowLab m c ⟨n + 1, hn⟩) (colLab m c ⟨n + 1, hn⟩) posInit,
       negStep (rowBlk m c ⟨n + 1, hn⟩) (colBlk m c ⟨n + 1, hn⟩) (rowLab m c ⟨n + 1, hn⟩) (colLab m c ⟨n + 1, hn⟩) negInit)
    else
      (posStep (rowBlk m c ⟨n + 1, hn⟩) (colBlk m c ⟨n + 1, hn⟩) (rowLab m c ⟨n + 1, hn⟩) (colLab m c ⟨n + 1, hn⟩) (accAt c n (Nat.lt_of_succ_lt hn)).1,
       negStep (rowBlk m c ⟨n + 1, hn⟩) (colBlk m c ⟨n + 1, hn⟩) (rowLab m c ⟨n + 1, hn⟩) (colLab m c ⟨n + 1, hn⟩) (accAt c n (Nat.lt_of_succ_lt hn)).2)

/-- At a first column tile the columns restart. -/
theorem accAt_reset (c : Dev nD) (t : Fin cfg0.N) (h : t.val % 8 = 0) :
    accAt m c t.val t.isLt = (posStep (rowBlk m c t) (colBlk m c t) (rowLab m c t) (colLab m c t) posInit,
      negStep (rowBlk m c t) (colBlk m c t) (rowLab m c t) (colLab m c t) negInit) := by
  obtain ⟨n, hn⟩ := t
  cases n with
  | zero => rfl
  | succ n => exact (if_pos h).trans rfl

/-- At any other column tile they advance from what the point before left. -/
theorem accAt_step (c : Dev nD) (t : Fin cfg0.N) (h : ¬ t.val % 8 = 0) :
    accAt m c t.val t.isLt
      = (posStep (rowBlk m c t) (colBlk m c t) (rowLab m c t) (colLab m c t) (accAt m c (t.val - 1) (Nat.lt_of_le_of_lt (Nat.sub_le _ _) t.isLt)).1,
         negStep (rowBlk m c t) (colBlk m c t) (rowLab m c t) (colLab m c t) (accAt m c (t.val - 1) (Nat.lt_of_le_of_lt (Nat.sub_le _ _) t.isLt)).2) := by
  obtain ⟨n, hn⟩ := t
  cases n with
  | zero => exact absurd (Nat.zero_mod _) h
  | succ n => exact (if_neg h).trans rfl

/-- What the output block holds once a row tile's last column tile has been folded in. -/
def outAt (c : Dev nD) (t : Fin cfg0.N) : Vec F S1024x1 .f32 := outOf (accAt m c t.val t.isLt).1 (accAt m c t.val t.isLt).2

/-! ## The invariant between points -/

/-- Before position `n`: at the very start the scratch columns hold anything; afterwards what position n − 1 left. -/
def PhiS (c : Dev nD) : (n : ℕ) → n ≤ cfg0.N → sProp 𝕄
  | 0, _ => Pipeline.ΦA spec0 c
  | n + 1, hn => iprop(iprop(owns (c : Thread nD τ) scPos fullShare (accAt m c n hn).1 ∗ owns (c : Thread nD τ) scNeg fullShare (accAt m c n hn).2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scPos fullShare (accAt m c n hn).1 ∗ owns (c : Thread nD τ) scNeg fullShare (accAt m c n hn).2) ∗ (∃ r, prngReg c r)) := rfl

theorem PhiS_pos (c : Dev nD) (n : ℕ) (h : n ≤ cfg0.N) (hz : n ≠ 0) :
    PhiS m c n h = iprop(iprop(owns (c : Thread nD τ) scPos fullShare (accAt m c (n - 1) (by omega)).1 ∗ owns (c : Thread nD τ) scNeg fullShare (accAt m c (n - 1) (by omega)).2) ∗ (∃ r, prngReg c r)) := by
  cases n with
  | zero => exact absurd rfl hz
  | succ n => rfl

/-! ## The proof data -/

/-- On core `c`: the arrays as the region finds them; after the body each input's buffer at its block, the output's
    at the block built from the two columns; the invariant `PhiS`; the normalised rows' array shared half and half by
    the two windows that read it; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

theorem q0 (c : Dev nD) : (dats m 0 c).q 0 = fullShare.left := by dsimp only [dats]
theorem q1 (c : Dev nD) : (dats m 0 c).q 1 = fullShare.right := by dsimp only [dats]
theorem q2 (c : Dev nD) : (dats m 0 c).q 2 = fullShare := by dsimp only [dats]
theorem q3 (c : Dev nD) : (dats m 0 c).q 3 = fullShare := by dsimp only [dats]

/-- Each input window's current staging buffer holds its block at every point, fetched there or not: an unfetched
    window's block index has not moved since the point before. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## After the region -/

/-- The output array once every row tile's block has been written back. -/
def outArr (c : Dev nD) : (⟨S8192x1, .f32⟩ : BufTy).Contents (Elt F) := (dats m 0 c).arrAt 4 cfg0.N

/-- The host lines after the region: the mean of the 8192 per-row losses. -/
def meanOf (o : (⟨S8192x1, .f32⟩ : BufTy).Contents (Elt F)) : (⟨S_, .f32⟩ : BufTy).Contents (Elt F) :=
  Host.divf (Host.reduceAdd o (constant S_ .f32 0x00000000#32) reducesTo_S8192x1_S_d0_1 h_S_) (constant S_ .f32 0x46000000#32)

end Cert.KernelIdeal.Hand

end
-- ==== Proof.KI.Run.lean ====
/-
  The kernel body's three runs, one per control case the grid meets, each stated with what every buffer holds afterwards
  as an explicit function of what the body loads: the inputs' buffers untouched, the two running columns advanced by one
  tile (from their reset values where the point resets them), the output block stored only in the last case.
-/
import proofs.«154702_j16406775070902_1_alg».proof.Proof.KI.Base
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer loads and stores read back

Every memory operation of this body moves a whole buffer: through the unit-stride rectangle of the buffer's own sizes at
offset zero.  A load through it of a whole memref that holds `X` reads `X`; a store through it leaves its payload,
whatever was there and whatever was stored before. -/

/-- The zero offset of a rank-two rectangle, as the constant function. -/
theorem Run.zeroOff : (![0, 0] : Fin 2 → ℕ) = fun _ => 0 := funext fun a => by fin_cases a <;> rfl

/-- A whole-buffer load of a whole memref holding `X` reads `X`. -/
theorem Run.loadWhole {S : Shape} {e : EltTy} {m : Memref sig .tc .vmem S e} (h : m.IsWhole) (X : Vec F S e)
    {off : Fin S.rank → ℕ} (hz : off = fun _ => 0) (inb : ∀ a, off a + S.size a ≤ S.size a) :
    m.view.readAt (Elt F) (Rect.unit off S.size inb).toLoadRect (h.unread X) = X := by
  rw [View.readAt_eq_ld, h.read_unread, View.ld_unit_zero hz]

/-- After a whole-buffer store, made last, the buffer reads as the stored payload. -/
theorem Run.readStoreWhole {S : Shape} {e : EltTy} (m : Memref sig .tc .vmem S e) (f : m.view.ty.Contents (Elt F))
    {off : Fin S.rank → ℕ} (hz : off = fun _ => 0) (inb : ∀ a, off a + S.size a ≤ S.size a) (w : Vec F S e)
    (L : List (View.Piece (Elt F) S e)) :
    m.view.read (Elt F) (m.view.writes (Elt F) f (⟨Rect.unit off S.size inb, w⟩ :: L)) = w := by
  rw [View.read_writes_eq_canon _ _ _ (fun y => ⟨_, List.mem_cons_self, View.mem_set_unit_zero hz inb y⟩),
    View.canon_cons_unit_zero hz]

/-- First column tile (reset taken, output not): the columns restart from −∞ / +∞; the output buffer is not touched. -/
theorem body_first (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hr : condReset i) (ho : ¬condOut i)
    (xr xc : Vec F S1024x256 .f32) (tr : Vec F S1024x1 .i32) (tc : Vec F S1x1024 .i32) (o : Vec F S1024x1 .f32) (E : Set ℕ) (K : PUnit → sProp 𝕄) :
    iprop(owns (c : Thread nD τ) arg2 fullShare xr ∗ owns (c : Thread nD τ) arg3 fullShare xc ∗ owns (c : Thread nD τ) arg4 fullShare tr ∗ owns (c : Thread nD τ) arg5 fullShare tc ∗ owns (c : Thread nD τ) arg6 fullShare o ∗ (∃ d, owns (c : Thread nD τ) arg7 fullShare d) ∗ (∃ d, owns (c : Thread nD τ) arg8 fullShare d)
        ∗ (iprop(owns (c : Thread nD τ) arg2 fullShare xr ∗ owns (c : Thread nD τ) arg3 fullShare xc ∗ owns (c : Thread nD τ) arg4 fullShare tr ∗ owns (c : Thread nD τ) arg5 fullShare tc ∗ owns (c : Thread nD τ) arg6 fullShare o
            ∗ owns (c : Thread nD τ) arg7 fullShare (posStep xr xc tr tc posInit) ∗ owns (c : Thread nD τ) arg8 fullShare (negStep xr xc tr tc negInit)) -∗ K ⟨⟩))
      ⊢ wp frame (wpE (defs₀ (F := F)) Variants.none c none) E (cc0__mining_kernel i arg2 harg2 arg3 harg3 arg4 harg4 arg5 harg5 arg6 harg6 arg7 harg7 arg8 harg8) K := by
  simp only [cc0__mining_kernel_eq_skeleton]; unfold cc0__mining_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hr | exact ho)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · -- the running maximum: the update store is the last; the column it loaded is what the reset store left
    iexists _; isplitr
    rotate_left
    · iexact H7
    · ipureintro
      rw [Run.readStoreWhole arg7 _ Run.zeroOff]
      sl_unfold_words
      rw [View.readCov_unit_zero (S := S1024x1) arg7.view Run.zeroOff, Run.loadWhole harg2 xr Run.zeroOff, Run.loadWhole harg3 xc Run.zeroOff, Run.loadWhole harg4 tr Run.zeroOff,
        Run.loadWhole harg5 tc Run.zeroOff]
      rfl
  · -- the running minimum, likewise
    iexists _; isplitr
    rotate_left
    · iexact H8
    · ipureintro
      rw [Run.readStoreWhole arg8 _ Run.zeroOff]
      sl_unfold_words
      rw [View.readCov_unit_zero (S := S1024x1) arg8.view Run.zeroOff, Run.loadWhole harg2 xr Run.zeroOff, Run.loadWhole harg3 xc Run.zeroOff, Run.loadWhole harg4 tr Run.zeroOff,
        Run.loadWhole harg5 tc Run.zeroOff]
      rfl

/-- A middle column tile (neither branch): the columns advance from what the point before left. -/
theorem body_middle (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hr : ¬condReset i) (ho : ¬condOut i)
    (xr xc : Vec F S1024x256 .f32) (tr : Vec F S1024x1 .i32) (tc : Vec F S1x1024 .i32) (o p n : Vec F S1024x1 .f32) (E : Set ℕ) (K : PUnit → sProp 𝕄) :
    iprop(owns (c : Thread nD τ) arg2 fullShare xr ∗ owns (c : Thread nD τ) arg3 fullShare xc ∗ owns (c : Thread nD τ) arg4 fullShare tr ∗ owns (c : Thread nD τ) arg5 fullShare tc ∗ owns (c : Thread nD τ) arg6 fullShare o ∗ owns (c : Thread nD τ) arg7 fullShare p ∗ owns (c : Thread nD τ) arg8 fullShare n
        ∗ (iprop(owns (c : Thread nD τ) arg2 fullShare xr ∗ owns (c : Thread nD τ) arg3 fullShare xc ∗ owns (c : Thread nD τ) arg4 fullShare tr ∗ owns (c : Thread nD τ) arg5 fullShare tc ∗ owns (c : Thread nD τ) arg6 fullShare o
            ∗ owns (c : Thread nD τ) arg7 fullShare (posStep xr xc tr tc p) ∗ owns (c : Thread nD τ) arg8 fullShare (negStep xr xc tr tc n)) -∗ K ⟨⟩))
      ⊢ wp frame (wpE (defs₀ (F := F)) Variants.none c none) E (cc0__mining_kernel i arg2 harg2 arg3 harg3 arg4 harg4 arg5 harg5 arg6 harg6 arg7 harg7 arg8 harg8) K := by
  simp only [cc0__mining_kernel_eq_skeleton]; unfold cc0__mining_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8
  sl_exec (disch := first | exact hr | exact ho)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr
    rotate_left
    · iexact H7
    · ipureintro
      rw [Run.readStoreWhole arg7 _ Run.zeroOff, Run.loadWhole harg2 xr Run.zeroOff, Run.loadWhole harg3 xc Run.zeroOff, Run.loadWhole harg4 tr Run.zeroOff,
        Run.loadWhole harg5 tc Run.zeroOff, Run.loadWhole harg7 p Run.zeroOff]
      rfl
  · iexists _; isplitr
    rotate_left
    · iexact H8
    · ipureintro
      rw [Run.readStoreWhole arg8 _ Run.zeroOff, Run.loadWhole harg2 xr Run.zeroOff, Run.loadWhole harg3 xc Run.zeroOff, Run.loadWhole harg4 tr Run.zeroOff,
        Run.loadWhole harg5 tc Run.zeroOff, Run.loadWhole harg8 n Run.zeroOff]
      rfl

/-- The last column tile (output taken, reset not): the columns advance and the output block is stored from them. -/
theorem body_last (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hr : ¬condReset i) (ho : condOut i)
    (xr xc : Vec F S1024x256 .f32) (tr : Vec F S1024x1 .i32) (tc : Vec F S1x1024 .i32) (p n : Vec F S1024x1 .f32) (E : Set ℕ) (K : PUnit → sProp 𝕄) :
    iprop(owns (c : Thread nD τ) arg2 fullShare xr ∗ owns (c : Thread nD τ) arg3 fullShare xc ∗ owns (c : Thread nD τ) arg4 fullShare tr ∗ owns (c : Thread nD τ) arg5 fullShare tc ∗ (∃ d, owns (c : Thread nD τ) arg6 fullShare d) ∗ owns (c : Thread nD τ) arg7 fullShare p ∗ owns (c : Thread nD τ) arg8 fullShare n
        ∗ (iprop(owns (c : Thread nD τ) arg2 fullShare xr ∗ owns (c : Thread nD τ) arg3 fullShare xc ∗ owns (c : Thread nD τ) arg4 fullShare tr ∗ owns (c : Thread nD τ) arg5 fullShare tc ∗ owns (c : Thread nD τ) arg6 fullShare (outOf (posStep xr xc tr tc p) (negStep xr xc tr tc n))
            ∗ owns (c : Thread nD τ) arg7 fullShare (posStep xr xc tr tc p) ∗ owns (c : Thread nD τ) arg8 fullShare (negStep xr xc tr tc n)) -∗ K ⟨⟩))
      ⊢ wp frame (wpE (defs₀ (F := F)) Variants.none c none) E (cc0__mining_kernel i arg2 harg2 arg3 harg3 arg4 harg4 arg5 harg5 arg6 harg6 arg7 harg7 arg8 harg8) K := by
  simp only [cc0__mining_kernel_eq_skeleton]; unfold cc0__mining_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  obtain rfl := harg2.eq_unread hf2; obtain rfl := harg3.eq_unread hf3; obtain rfl := harg4.eq_unread hf4
  obtain rfl := harg5.eq_unread hf5; obtain rfl := harg7.eq_unread hf7; obtain rfl := harg8.eq_unread hf8
  sl_exec (disch := first | exact hr | exact ho)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · -- the output block: stored from the two columns as the update stores of this same point left them
    iexists _; isplitr
    rotate_left
    · iexact H6
    · ipureintro
      rw [Run.readStoreWhole arg6 _ Run.zeroOff]
      sl_unfold_words
      rw [View.readCov_unit_zero (S := S1024x1) arg7.view Run.zeroOff, View.readCov_unit_zero (S := S1024x1) arg8.view Run.zeroOff,
        Run.loadWhole harg2 xr Run.zeroOff, Run.loadWhole harg3 xc Run.zeroOff, Run.loadWhole harg4 tr Run.zeroOff,
        Run.loadWhole harg5 tc Run.zeroOff, Run.loadWhole harg7 p Run.zeroOff, Run.loadWhole harg8 n Run.zeroOff]
      rfl
  isplitl [H7]
  · iexists _; isplitr
    rotate_left
    · iexact H7
    · ipureintro
      sl_unfold_words
      rw [Run.readStoreWhole arg7 _ Run.zeroOff, Run.loadWhole harg2 xr Run.zeroOff, Run.loadWhole harg3 xc Run.zeroOff, Run.loadWhole harg4 tr Run.zeroOff,
        Run.loadWhole harg5 tc Run.zeroOff, Run.loadWhole harg7 p Run.zeroOff]
      rfl
  · iexists _; isplitr
    rotate_left
    · iexact H8
    · ipureintro
      sl_unfold_words
      rw [Run.readStoreWhole arg8 _ Run.zeroOff, Run.loadWhole harg2 xr Run.zeroOff, Run.loadWhole harg3 xc Run.zeroOff, Run.loadWhole harg4 tr Run.zeroOff,
        Run.loadWhole harg5 tc Run.zeroOff, Run.loadWhole harg8 n Run.zeroOff]
      rfl

end Cert.KernelIdeal.Hand

end
-- ==== Proof.KI.Oblig.lean ====
/-
  The body obligation: at every grid point the kernel body, handed each window's current staging buffer at what it then
  holds and the two scratch columns as the point before left them, runs to the buffers at what the proof data says it
  leaves — the inputs' blocks in place, the columns one tile further, the output block stored where the column tile is
  the last and left as found elsewhere.
-/
import proofs.«154702_j16406775070902_1_alg».proof.Proof.KI.Data
import proofs.«154702_j16406775070902_1_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]

set_option maxHeartbeats 4000000 in
/-- The body at any point: the closed forms say which of the three control cases the point is in; that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  have hN : t.val < 64 := lt_of_lt_of_eq t.isLt (show cfg0.N = 64 from N_0)
  by_cases h0 : t.val % 8 = 0
  · have h7 : ¬ t.val % 8 = 7 := by omega
    rw [Dat.leavesExact_idle (dats m 0 c) 4 t (idle4 t h7) (noFlush4 t h7), accAt_reset m c t h0]
    by_cases hz : t.val = 0
    · rw [PhiS_castSucc m c t, PhiS_zero m c _ _ hz, PhiA_eq]
      iintro ⟨⟨⟨HP, HN⟩, Hg⟩, Ho, ⟨%d0, H0⟩, ⟨%d1, H1⟩, ⟨%d2, H2⟩, ⟨%d3, H3⟩, ⟨%d4, H4⟩⟩
      iapply (body_first c (grid0.coords t) _ _ _ _ _ _ _ _ _ _ _ _ _ _ ((hcondReset t).mpr h0) (fun h => h7 ((hcondOut t).mp h))
        (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexact H4
      isplitl [HP]; · iexact HP
      isplitl [HN]; · iexact HN
      iintro ⟨H0, H1, H2, H3, H4, HP, HN⟩
      isplitl [HP HN Hg]
      · isplitl [HP HN]
        · isplitl [HP] <;> iassumption
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HP, HN⟩, Hg⟩, Ho, ⟨%d0, H0⟩, ⟨%d1, H1⟩, ⟨%d2, H2⟩, ⟨%d3, H3⟩, ⟨%d4, H4⟩⟩
      iapply (body_first c (grid0.coords t) _ _ _ _ _ _ _ _ _ _ _ _ _ _ ((hcondReset t).mpr h0) (fun h => h7 ((hcondOut t).mp h))
        (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexact H4
      isplitl [HP]; · iexists _; iexact HP
      isplitl [HN]; · iexists _; iexact HN
      iintro ⟨H0, H1, H2, H3, H4, HP, HN⟩
      isplitl [HP HN Hg]
      · isplitl [HP HN]
        · isplitl [HP] <;> iassumption
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [PhiS_castSucc m c t, PhiS_pos m c _ _ hz, accAt_step m c t h0]
    by_cases h7 : t.val % 8 = 7
    · rw [show (dats m 0 c).leavesExact 4 t = owns (c : Thread nD τ) (ms4 t) fullShare ((dats m 0 c).after 4 t) from by
        unfold Dat.leavesExact; rw [live4 t h7], after4]
      unfold outAt; rw [accAt_step m c t h0]
      iintro ⟨⟨⟨HP, HN⟩, Hg⟩, Ho, ⟨%d0, H0⟩, ⟨%d1, H1⟩, ⟨%d2, H2⟩, ⟨%d3, H3⟩, ⟨%d4, H4⟩⟩
      iapply (body_last c (grid0.coords t) _ _ _ _ _ _ _ _ _ _ _ _ _ _ (fun h => h0 ((hcondReset t).mp h)) ((hcondOut t).mpr h7)
        (iblk m c 0 t) (iblk m c 1 t) (iblk m c 2 t) (iblk m c 3 t) _ _ Set.univ _)
      isplitl [H0]; · iexact H0
      isplitl [H1]; · iexact H1
      isplitl [H2]; · iexact H2
      isplitl [H3]; · iexact H3
      isplitl [H4]; · iexists _; iexact H4
      isplitl [HP]; · iexact HP
      isplitl [HN]; · iexact HN
      iintro ⟨H0, H1, H2, H3, H4, HP, HN⟩
      isplitl [HP HN Hg]
      · isplitl [HP HN]
        · isplitl [HP] <;> iassumption
        iexact Hg
      isplitl [Ho]; · iexact Ho
      isplitl [H0]; · iexact H0
      isplitl [H1]; · iexact H1
      isplitl [H2]; · iexact H2
      isplitl [H3]; · iexact H3
      iexact H4
    · rw [Dat.leavesExact_idle (dats m 0 c) 4 t (idle4 t h7) (noFlush4 t h7)]
      iintro ⟨⟨⟨HP, HN⟩, Hg⟩, Ho, ⟨%d0, H0⟩, ⟨%d1, H1⟩, ⟨%d2, H2⟩, ⟨%d3, H3⟩, ⟨%d4, H4⟩⟩
      iapply (body_middle c (grid0.coords t) _ _ _ _ _ _ _ _ _ _ _ _ _ _ (fun h => h0 ((hcondReset t).mp h)) (fun h => h7 ((hcondOut t).mp h))
        (iblk m c 0 t) (iblk m c 1 t) (iblk m c 2 t) (iblk m c 3 t) _ _ _ Set.univ _)
      isplitl [H0]; · iexact H0
      isplitl [H1]; · iexact H1
      isplitl [H2]; · iexact H2
      isplitl [H3]; · iexact H3
      isplitl [H4]; · iexact H4
      isplitl [HP]; · iexact HP
      isplitl [HN]; · iexact HN
      iintro ⟨H0, H1, H2, H3, H4, HP, HN⟩
      isplitl [HP HN Hg]
      · isplitl [HP HN]
        · isplitl [HP] <;> iassumption
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Launch.lean ====
/-
  The run of the whole program: nine host operations, the kernel region, four host operations.

  The region reads the normalised rows through two windows, so at its entry that array's full share is split in two
  halves, one per window; the output array comes back at what the write-backs left in it, and the four operations
  after the region take its mean.
-/
import proofs.«154702_j16406775070902_1_alg».proof.Proof.KI.Data
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- Core `c`'s buffers at launch, as the operations' valuation. -/
abbrev Vl (c : Dev nD) : Valuation τ sig (Elt F) := fun b => m (c, b)

/-- Every buffer the nine operations before the region write is one of their nine results. -/
theorem hostOps0_writes : (hostOps0 (F := F)).Forall fun op =>
    op.writes ⊆ (([main_v0, main_cst, main_v1, main_v2, main_v3, main_v4, main_v5, main_v6, main_v7] : List (Ref sig .tc)).map (Proc.devRef (τ := τ) .tc)).toFinset := by
  refine ⟨?_, ?_, ?_, ?_, ?_, ?_, ?_, ?_, ?_⟩ <;>
    exact Finset.singleton_subset_iff.mpr (List.mem_toFinset.mpr (List.mem_map_of_mem (by decide)))

/-- Neither argument is among them: both reach the region as launched. -/
theorem V_arg0 (c : Dev nD) : V m c main_arg0 = m ((c : Thread nD τ).loc main_arg0) :=
  StableHlo.after_of_writes_sub hostOps0 (Vl m c) hostOps0_writes (by decide)
theorem V_arg1 (c : Dev nD) : V m c main_arg1 = m ((c : Thread nD τ).loc main_arg1) :=
  StableHlo.after_of_writes_sub hostOps0 (Vl m c) hostOps0_writes (by decide)

/-- The set the operations before the region run within: the device buffers of the TensorCore's unscoped references. -/
def ucRefs : Finset (DevRef τ sig) :=
  (Finset.univ.filter fun b : Ref sig .tc => ¬ b.isScoped).map ⟨Proc.devRef .tc, Proc.devRef_injective _⟩

omit [FloatOps F] in
/-- That set held at a valuation is the launch's unscoped buffers at it: the same points-to's, indexed by reference. -/
theorem unscopedBufs_held (c : Dev nD) (W : Valuation τ sig (Elt F)) :
    (unscopedBufs c (fun b => W b) : sProp 𝕄) = StableHlo.held (c : Thread nD τ) ucRefs W := by
  unfold unscopedBufs StableHlo.held ucRefs
  rw [bigSep_map]
  rfl

omit [FloatOps F] in
/-- A host operation names no scoped buffer: one whose buffers are TensorCore references stays within the set. -/
theorem sub_ucRefs (op : HloOp τ sig (Elt F)) (h : op.bufs ⊆ StableHlo.tcRefs τ sig) : op.bufs ⊆ ucRefs := fun b hb => by
  obtain ⟨r, -, rfl⟩ := Finset.mem_map.mp (h hb)
  exact Finset.mem_map_of_mem _ (Finset.mem_filter.mpr ⟨Finset.mem_univ r, fun hs => Bool.false_ne_true ((op.no_scoped _ hb).symm.trans hs)⟩)

/-- No operation before the region allocates. -/
theorem hostOps0_fresh : ∀ op ∈ (hostOps0 (F := F)), op.fresh = ∅ := by
  intro op hop
  simp only [List.mem_cons, List.mem_nil_iff, or_false] at hop
  rcases hop with rfl | rfl | rfl | rfl | rfl | rfl | rfl | rfl | rfl <;> rfl

/-! ## The host operations after the region -/

/-- The five buffers the four operations after the region touch: the output array, two constants, the sum, the mean. -/
def tailList : List (Ref sig .tc) := [main_v8, main_cst_0, main_v9, main_cst_1, main_v10]
def tailRefs : Finset (DevRef τ sig) := tailList.toFinset.map ⟨Proc.devRef .tc, Proc.devRef_injective _⟩

theorem mem_tailRefs {x : Ref sig .tc} (hx : x ∈ tailList) : Proc.devRef (τ := τ) .tc x ∈ tailRefs :=
  Finset.mem_map_of_mem _ (List.mem_toFinset.mpr hx)

theorem tail_sub : ∀ op ∈ (hostOps1 (F := F)), op.bufs ⊆ tailRefs := by
  intro op hop
  simp only [List.mem_cons, List.mem_nil_iff, or_false] at hop
  rcases hop with rfl | rfl | rfl | rfl
  · exact Finset.singleton_subset_iff.mpr (mem_tailRefs (by decide))
  · rw [StableHlo.binary_bufs]
    exact Finset.insert_subset_iff.mpr ⟨mem_tailRefs (by decide), Finset.insert_subset_iff.mpr ⟨mem_tailRefs (by decide), Finset.singleton_subset_iff.mpr (mem_tailRefs (by decide))⟩⟩
  · exact Finset.singleton_subset_iff.mpr (mem_tailRefs (by decide))
  · rw [StableHlo.binary_bufs]
    exact Finset.insert_subset_iff.mpr ⟨mem_tailRefs (by decide), Finset.insert_subset_iff.mpr ⟨mem_tailRefs (by decide), Finset.singleton_subset_iff.mpr (mem_tailRefs (by decide))⟩⟩

/-- Nor does any after it. -/
theorem hostOps1_fresh : ∀ op ∈ (hostOps1 (F := F)), op.fresh = ∅ := by
  intro op hop
  simp only [List.mem_cons, List.mem_nil_iff, or_false] at hop
  rcases hop with rfl | rfl | rfl | rfl <;> rfl

/-- The buffers when the region is left: as it found them, but for the output array, which holds what the write-backs
    left in it. -/
def Vmid (c : Dev nD) : Valuation τ sig (Elt F) := Function.update (V0 m c) (Proc.devRef .tc main_v8) (outArr m c)

theorem Vmid_v8 (c : Dev nD) : Vmid m c (Proc.devRef .tc main_v8) = outArr m c := by
  unfold Vmid; rw [Function.update_self]

theorem Vmid_ne (c : Dev nD) (b : Ref sig .tc) (h : b ≠ main_v8) : Vmid m c (Proc.devRef .tc b) = V m c b := by
  unfold Vmid; rw [Function.update_of_ne (StableHlo.devRef_ne_of_ne h)]

/-- The result buffer after the four operations is the mean of the output array. -/
theorem after_v10 (c : Dev nD) : StableHlo.after hostOps1 (Vmid m c) (Proc.devRef .tc main_v10) = meanOf (outArr m c) := by
  show StableHlo.after hostOps1 (Vmid m c) (Proc.devRef .tc main_v10) = _
  after_results
  unfold meanOf
  rw [Vmid_v8]

omit [FloatOps F] in
/-- The five held at a valuation, one by one. -/
theorem held_tail (c : Dev nD) (W : Valuation τ sig (Elt F)) :
    (StableHlo.held (c : Thread nD τ) tailRefs W : sProp 𝕄)
      = iprop((((c : Thread nD τ).loc main_v8) ↦{fullShare} W (Proc.devRef .tc main_v8)) ∗ (((c : Thread nD τ).loc main_cst_0) ↦{fullShare} W (Proc.devRef .tc main_cst_0))
          ∗ (((c : Thread nD τ).loc main_v9) ↦{fullShare} W (Proc.devRef .tc main_v9)) ∗ (((c : Thread nD τ).loc main_cst_1) ↦{fullShare} W (Proc.devRef .tc main_cst_1))
          ∗ (((c : Thread nD τ).loc main_v10) ↦{fullShare} W (Proc.devRef .tc main_v10))) := by
  unfold StableHlo.held tailRefs
  rw [bigSep_map, bigSep_eq_bigSepL tailList (by decide)]
  rfl

/-! ## The windows' arrays -/

omit [FloatOps F] in
/-- The distinct buffers behind the five windows are four: the first two windows read one array. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v5) ↦{fullShare} W main_v5) ∗ (((c : Thread nD τ).loc main_v6) ↦{fullShare} W main_v6)
          ∗ (((c : Thread nD τ).loc main_v7) ↦{fullShare} W main_v7) ∗ (((c : Thread nD τ).loc main_v8) ↦{fullShare} W main_v8)) := by
  unfold Pipeline.arrBufs
  rw [bigSep_eq_bigSepL_of_eq [main_v5, main_v6, main_v7, main_v8] (by decide) (by decide)]
  rfl

/-- The pipeline's arrays, window by window: the normalised rows at half the full share twice, the two label arrays and
    the output array at the full share. -/
theorem arrays_chain (c : Dev nD) (A : (w : Fin cfg0.W) → Buf (Elt F) ((cfg0.win w).arr.view.loc (c : Thread nD τ))) :
    ((dats m 0 c).arrays A : sProp 𝕄)
      = iprop((((c : Thread nD τ).loc main_v5) ↦{fullShare.left} A 0) ∗ (((c : Thread nD τ).loc main_v5) ↦{fullShare.right} A 1)
          ∗ (((c : Thread nD τ).loc main_v6) ↦{fullShare} A 2) ∗ (((c : Thread nD τ).loc main_v7) ↦{fullShare} A 3)
          ∗ (((c : Thread nD τ).loc main_v8) ↦{fullShare} A 4)) := by
  unfold Dat.arrays
  rw [bigSep_W0, (arr_whole0 0).set_eq_univ, (arr_whole0 2).set_eq_univ, (arr_whole0 3).set_eq_univ, (arr_whole0 4).set_eq_univ]
  rw [show (dats m 0 c).share 0 = fullShare.left from (if_neg (by decide)).trans (q0 m c),
    show (dats m 0 c).share 1 = fullShare.right from (if_neg (by decide)).trans (q1 m c),
    show (dats m 0 c).share 2 = fullShare from (if_neg (by decide)).trans (q2 m c),
    show (dats m 0 c).share 3 = fullShare from (if_neg (by decide)).trans (q3 m c),
    show (dats m 0 c).share 4 = fullShare from if_pos (by decide)]

/-! ## The segments -/

/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm
abbrev 𝒱₀ : Variants := Variants.none

/-- What rides beside the buffers through the first host operations: the core's `owes` and its generator register
    (the region's invariant wants the register). -/
abbrev R (c : Dev nD) : sProp 𝕄 :=
  iprop((∃ W, owes (c : Thread nD τ) (0 : CellTallies nD τ sig Unit) W) ∗ ∃ r, prngReg c r)

/-- Both arguments as the region found them. -/
abbrev args (c : Dev nD) : sProp 𝕄 :=
  iprop((((c : Thread nD τ).loc main_arg0) ↦{fullShare} V m c main_arg0) ∗ (((c : Thread nD τ).loc main_arg1) ↦{fullShare} V m c main_arg1))

/-- What rides through the last host operations: the arguments and the core's `owes`. -/
abbrev R1 (c : Dev nD) : sProp 𝕄 :=
  iprop(args m c ∗ ∃ W, owes (c : Thread nD τ) (0 : CellTallies nD τ sig Unit) W)

/-- THE FIRST HOST SEGMENT: nine operations over the unscoped buffers. -/
def seg0 : Pipeline.HostSeg (Name := ℕ) (U := UR sig nD τ) (pcfgs (F := F)) defs₀ 𝒱₀ L lv :=
  Pipeline.HostSeg.ofOps _ _ _ _ _ ucRefs hostOps0 (fun op h => sub_ucRefs op ((List.forall_iff_forall_mem.mp hostOps0_sub) op h))
    hostOps0_fresh (Vl m) R

/-- THE LAST HOST SEGMENT: four operations over the five buffers they touch, the arguments riding along. -/
def seg1 : Pipeline.HostSeg (Name := ℕ) (U := UR sig nD τ) (pcfgs (F := F)) defs₀ 𝒱₀ L lv :=
  Pipeline.HostSeg.ofOps _ _ _ _ _ tailRefs hostOps1 tail_sub hostOps1_fresh (Vmid m) (R1 m)

/-- The last thread state: the five buffers after the four operations, and the arguments. -/
abbrev Tₙ (c : Dev nD) : sProp 𝕄 :=
  iprop(StableHlo.held (c : Thread nD τ) tailRefs (StableHlo.after hostOps1 (Vmid m c)) ∗ args m c)

set_option backward.isDefEq.respectTransparency.types false in
/-- THE REGION, entered from what the first host operations left. Of the unscoped buffers the four behind the windows
    go to the pipeline — the normalised rows' full share as two halves, one per window that reads them —, the rest
    bypasses; the generator register enters the invariant, which at the first point is the scratch columns at any
    contents and that register, and at the last the columns at what the last point left. At the exit the output array
    at its final contents joins the four buffers of the bypassing rest the last host operations touch, and both
    arguments ride on. -/
def reg0 (hbody : ∀ c, Pipeline.BodyObligationLoose (dats m 0 c) (defs₀ (F := F)) Variants.none () Set.univ) :
    Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody := hbody
  hwaits := Pipeline.hwaits_of_owed_zero _ _ _ _ L lv 0 fun _ _ => rfl
  pre c := iprop(StableHlo.held (c : Thread nD τ) ucRefs (StableHlo.after hostOps0 (Vl m c)) ∗ R c)
  post c := iprop(StableHlo.held (c : Thread nD τ) tailRefs (Vmid m c) ∗ R1 m c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [show StableHlo.held (c : Thread nD τ) ucRefs (StableHlo.after hostOps0 (Vl m c)) = unscopedBufs c (V m c) from (unscopedBufs_held c _).symm,
      Pipeline.unscopedBufs_split₀ cfgs 0 winFacts₀0.arr_unscoped c (V m c), arrBufs_eq, arrays_chain]
    iintro ⟨⟨⟨⟨H5, H6, H7, H8⟩, Hrest⟩, HO, Hp⟩, -, -⟩
    ihave H5 := (pointsTo_share (PosShare.mem_left_op_right fullShare)).1 $$ H5
    icases H5 with ⟨H5l, H5r⟩
    imodintro
    isplitl [H5l H5r H6 H7 H8]
    · isplitl [H5l]; · iexact H5l
      isplitl [H5r]; · iexact H5r
      isplitl [H6]; · iexact H6
      isplitl [H7]; · iexact H7
      iexact H8
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m 0 c).Φ 0 = Pipeline.ΦA spec0 c from rfl]
    unfold Pipeline.ΦA
    iintro ⟨Hp, -, Hr⟩
    isplitl [Hr]; · iexact Hr
    iexact Hp
  hout c := by
    have h : (dats m 0 c).Φ (Fin.last cfg0.N) ⊢ (Pipeline.ΦA spec0 c : sProp 𝕄) := by
      rw [PhiA_eq, show (dats m 0 c).Φ (Fin.last cfg0.N) = PhiS m c cfg0.N (Nat.le_refl _) from rfl, PhiS_pos m c cfg0.N (Nat.le_refl _) (by decide)]
      iintro ⟨⟨Hp, Hn⟩, Hr⟩
      isplitr [Hr]
      · isplitl [Hp]
        · iexists _; iexact Hp
        · iexists _; iexact Hn
      · iexact Hr
    refine h.trans ?_
    rw [Pipeline.ownSems0_none]; unfold Pipeline.ΦA
    iintro ⟨Hr, Hp⟩
    isplitl [Hp]; · iexact Hp
    isplitr; · iempintro
    iexact Hr
  hexit c := by
    rw [arrays_chain, unscopedRest0_eq, held_tail, Vmid_v8, Vmid_ne m c main_cst_0 (by decide), Vmid_ne m c main_v9 (by decide),
      Vmid_ne m c main_cst_1 (by decide), Vmid_ne m c main_v10 (by decide)]
    iintro ⟨⟨-, -, -, -, H8⟩, HO, -, ⟨Ha0, Ha1, -, -, -, -, -, -, Hc0, H9, Hc1, H10⟩⟩
    imodintro
    isplitl [H8 Hc0 H9 Hc1 H10]
    · isplitl [H8]; · iexact H8
      isplitl [Hc0]; · iexact Hc0
      isplitl [H9]; · iexact H9
      isplitl [Hc1]; · iexact Hc1
      iexact H10
    isplitl [Ha0 Ha1]
    · isplitl [Ha0]; · iexact Ha0
      iexact Ha1
    unfold Pipeline.Dat.owesAt Pipeline.owesWithin
    icases HO with ⟨%W, -, HO⟩; iexists W; iexact HO

/-- @main as the list of the three. -/
abbrev segs (hbody : ∀ c, Pipeline.BodyObligationLoose (dats m 0 c) (defs₀ (F := F)) Variants.none () Set.univ) :
    List (Pipeline.Seg (pcfgs (F := F)) adm (dats m) () defs₀ 𝒱₀ L lv) := [.host (seg0 m), .region (reg0 m hbody), .host (seg1 m)]

set_option backward.isDefEq.respectTransparency.types false in
/-- From any memory with zero counters every weakly fair execution of the program terminates, nothing faulting; the
    result is the mean of the output array the pipeline's write-backs produce, and both arguments end as launched. -/
theorem run_main (hbody : ∀ c, Pipeline.BodyObligationLoose (dats m 0 c) (defs₀ (F := F)) Variants.none () Set.univ) :
    θ_run defs (onTc (τ := τ) (main (F := F))) ⟨m, fun _ => 0, ρ⟩ (fun r => ∀ c : Dev nD,
      r.2.mem ((c.tc : Thread nD τ).loc main_v10) = meanOf (outArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (dats m) () cellOf_inj emb₁ defs₀ 𝒱₀ L lv m ρ main (segs m hbody)
    (fun c Q => by rw [main_segs adm (dats m) () 𝒱₀ L lv (seg0 m) (seg1 m) (reg0 m hbody) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (Vl m c) ∗ R c)) (Tₙ := Tₙ m)
    (hch := ⟨fun _ => .rfl, fun _ => .rfl, fun _ => .rfl, fun c => by
      show iprop(StableHlo.held (c : Thread nD τ) tailRefs (StableHlo.after hostOps1 (Vmid m c)) ∗ R1 m c) ⊢ _
      iintro ⟨Hh, Ha, HO⟩
      isplitr [HO]
      · isplitl [Hh]; · iexact Hh
        iexact Ha
      · iexact HO⟩)
    (hinit := by
      refine Pipeline.initEach L lv fun c => ?_
      rw [show unscopedBufs c (fun b => m ((c : Thread nD τ).loc b)) = StableHlo.held (c : Thread nD τ) ucRefs (Vl m c) from unscopedBufs_held c (Vl m c)]
      iintro ⟨⟨Hh, -, HO, -, Hp, -⟩, -⟩
      imodintro
      isplitl [Hh]; · iexact Hh
      isplitl [HO]; · iexists ∅; iexact HO
      iexists _; iexact Hp)
    (QY := fun c s => s.mem ((c.tc : Thread nD τ).loc main_v10) = meanOf (outArr m c)
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => by
      dsimp only [Tₙ, args]; rw [held_tail, after_v10, V_arg0, V_arg1]
      iintro ⟨⟨⟨-, -, -, -, H10⟩, Ha0, Ha1⟩, HSI⟩
      icombine HSI H10 gives %h10
      icombine HSI Ha0 gives %h0
      icombine HSI Ha1 gives %h1
      imodintro
      isplitr
      · ipureintro; exact ⟨Buf.eq_of_forall_mem_univ h10, Buf.eq_of_forall_mem_univ h0, Buf.eq_of_forall_mem_univ h1⟩
      iexact HSI)
    (hQ := fun _ h => h)

end Cert.KernelIdeal.Hand

end
-- ==== Proof.Spec.lean ====
/-
  The batch-hard mining loss as mathematics over the extended reals.

  `vs r` is the r-th normalised row (256 entries), `tg r` its label.  The clamped squared distance of rows r and j is
  max(ε, (|v_r|² + |v_j|²) − 2·⟨v_r, v_j⟩); the hardest positive of row r is the largest such distance over the rows
  with r's label (−∞ where the labels differ), the hardest negative the smallest over the others (+∞ where they agree);
  the row's loss is max(pos − neg + margin, 0).  The float literals stay as the words both programs print.

  A maximum over all 8192 columns from −∞ is the running maximum over the eight tiles of 1024 columns (and dually for
  the minimum from +∞): −∞ is the lattice's bottom, and max is associative and commutative.
-/
import Idealize.ShloMosaic.PureOps.Ideal
import Idealize.ShloMosaic.PureOps.Ideal.Laws

noncomputable section

namespace Cert.Spec

open Idealize.ShloMosaic

/-- The literals, as extended reals. -/
def eps : EReal := Ideal.ofBits .f32 0x2B8CBCCC#32
def two : EReal := Ideal.ofBits .f32 0x40000000#32
def ninf : EReal := Ideal.ofBits .f32 0xFF800000#32
def pinf : EReal := Ideal.ofBits .f32 0x7F800000#32
def margin : EReal := Ideal.ofBits .f32 0x3E99999A#32
def zero : EReal := Ideal.ofBits .f32 0x00000000#32

theorem ninf_eq_bot : ninf = ⊥ := by simp [ninf, Ideal.ofBits, Ideal.ieee]
theorem pinf_eq_top : pinf = ⊤ := by simp [pinf, Ideal.ofBits, Ideal.ieee]

/-- A row's squared norm, two rows' inner product, and their clamped squared distance. -/
def sq (x : Fin 256 → EReal) : EReal := ∑ k, x k * x k
def gram (x y : Fin 256 → EReal) : EReal := ∑ k, x k * y k
def dist (x y : Fin 256 → EReal) : EReal := max eps ((sq x + sq y) - two * gram x y)

section Loss
variable (vs : Fin 8192 → Fin 256 → EReal) (tg : Fin 8192 → BitVec 32)

/-- The candidate of column j for row r's hardest positive, and for its hardest negative. -/
def posC (r j : Fin 8192) : EReal := if tg r = tg j then dist (vs r) (vs j) else ninf
def negC (r j : Fin 8192) : EReal := if tg r = tg j then pinf else dist (vs r) (vs j)
/-- The hardest positive and the hardest negative of row r. -/
def pos (r : Fin 8192) : EReal := (Finset.univ : Finset (Fin 8192)).fold max ninf (posC vs tg r)
def neg (r : Fin 8192) : EReal := (Finset.univ : Finset (Fin 8192)).fold min pinf (negC vs tg r)
/-- Row r's loss. -/
def rowLoss (r : Fin 8192) : EReal := max ((pos vs tg r - neg vs tg r) + margin) zero
end Loss

/-! ## Eight tiles of 1024 columns -/

/-- Column b of tile k. -/
def tileIdx (k : Fin 8) (b : Fin 1024) : Fin 8192 := ⟨1024 * k.val + b.val, by omega⟩

/-- The maximum of f over tile k from −∞ (−∞ past the last tile), and the running maximum over tiles 0…k. -/
def tileMax (f : Fin 8192 → EReal) (k : ℕ) : EReal :=
  (Finset.univ : Finset (Fin 1024)).fold max ninf fun b => if h : k < 8 then f (tileIdx ⟨k, h⟩ b) else ninf
def runMax (f : Fin 8192 → EReal) : ℕ → EReal
  | 0 => max ninf (tileMax f 0)
  | k + 1 => max (runMax f k) (tileMax f (k + 1))
/-- Dually from +∞. -/
def tileMin (f : Fin 8192 → EReal) (k : ℕ) : EReal :=
  (Finset.univ : Finset (Fin 1024)).fold min pinf fun b => if h : k < 8 then f (tileIdx ⟨k, h⟩ b) else pinf
def runMin (f : Fin 8192 → EReal) : ℕ → EReal
  | 0 => min pinf (tileMin f 0)
  | k + 1 => min (runMin f k) (tileMin f (k + 1))

end Cert.Spec

end
-- ==== Proof.LibKeepdims.lean ====
/-
  Two layout operations of a column read at an index, at any extents: a vector of length `a` viewed as an `[a, 1]`
  column (what `keepdims=True` leaves of a sum along the lanes) reads its `i`-th entry at `(i, 0)`; and an `[a, 1]`
  column broadcast along the lanes to `[a, b]` reads, at `(p, c)`, the column's entry of row `p`.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KI.PayVal.lean ====
/-
  What the body's stored values are, entry by entry, on the extended reals.

  With the row tile's and the column tile's 1024 × 256 blocks and the two label blocks loaded, entry (a, b) of the tile's
  distance matrix is the clamped squared distance of row a of the first block and row b of the second; the running
  maximum's new entry a is the old one against the maximum, over the tile's columns b with row a's label, of those
  distances (−∞ elsewhere), the running minimum's dually, and the output's entry a is max(pos − neg + margin, 0).
-/
import proofs.«154702_j16406775070902_1_alg».proof.Proof.KI.Base
import proofs.«154702_j16406775070902_1_alg».proof.Proof.Spec
import proofs.«154702_j16406775070902_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx (ix1 ix2)

/-! ## A reduction along the lanes, read at a row -/

/-- The reduced index a with lane k put back is (a, k). -/
theorem lift_row {m n : ℕ} (h : (⟨2, ![m, n]⟩ : Shape).Reduces [1] (⟨1, ![m]⟩ : Shape)) (a : Fin m)
    (k : Fin ((⟨2, ![m, n]⟩ : Shape).size 1)) : h.lift (ix1 a) k = ix2 a (⟨k.val, k.isLt⟩ : Fin n) := by
  funext c; apply Fin.ext
  fin_cases c <;> rfl

/-- A sum along the lanes at row a is the sum of that row's entries. -/
theorem rowSum_apply {φ : FTy} {m n : ℕ} (src : FVec Ideal ⟨2, ![m, n]⟩ φ) (acc : BitVec φ.bits)
    (h : (⟨2, ![m, n]⟩ : Shape).Reduces [1] (⟨1, ![m]⟩ : Shape)) (hφ : FKind.Formats φ) (hacc : acc = FKind.add.neutral φ hφ)
    (a : Fin m) :
    multiReduction (F := Ideal) .add [1] (⟨1, ![m]⟩ : Shape) src acc h hφ hacc (ix1 a) = ∑ k : Fin n, src (ix2 a k) := by
  refine (Ideal.multiReduction_add_single src acc h hφ hacc (ix1 a)).trans ?_
  exact Finset.sum_congr rfl fun k _ => congrArg src (lift_row h a k)

/-- A maximum along the lanes at row a is the fold of max over that row's entries from the accumulator's value. -/
theorem rowMax_apply {φ : FTy} {m n : ℕ} (src : FVec Ideal ⟨2, ![m, n]⟩ φ) (acc : BitVec φ.bits)
    (h : (⟨2, ![m, n]⟩ : Shape).Reduces [1] (⟨1, ![m]⟩ : Shape)) (hφ : FKind.Formats φ) (hacc : acc = FKind.maximumf.neutral φ hφ)
    (a : Fin m) :
    multiReduction (F := Ideal) .maximumf [1] (⟨1, ![m]⟩ : Shape) src acc h hφ hacc (ix1 a)
      = (Finset.univ : Finset (Fin n)).fold max (Ideal.ofBits φ acc) fun b => src (ix2 a b) := by
  refine (Ideal.multiReduction_maximumf_single src acc h hφ hacc (ix1 a)).trans ?_
  exact congrArg (fun f => Finset.fold max (Ideal.ofBits φ acc) f (Finset.univ : Finset (Fin n)))
    (funext fun k => congrArg src (lift_row h a k))

/-- Dually for the minimum. -/
theorem rowMin_apply {φ : FTy} {m n : ℕ} (src : FVec Ideal ⟨2, ![m, n]⟩ φ) (acc : BitVec φ.bits)
    (h : (⟨2, ![m, n]⟩ : Shape).Reduces [1] (⟨1, ![m]⟩ : Shape)) (hφ : FKind.Formats φ) (hacc : acc = FKind.minimumf.neutral φ hφ)
    (a : Fin m) :
    multiReduction (F := Ideal) .minimumf [1] (⟨1, ![m]⟩ : Shape) src acc h hφ hacc (ix1 a)
      = (Finset.univ : Finset (Fin n)).fold min (Ideal.ofBits φ acc) fun b => src (ix2 a b) := by
  refine (multiReduction_minimumf_eq_fold src acc h hφ hacc (ix1 a)).trans ?_
  refine (h.fold_filter_drop_single _ _ src (ix1 a)).trans ?_
  exact congrArg (fun f => Finset.fold min (Ideal.ofBits φ acc) f (Finset.univ : Finset (Fin n)))
    (funext fun k => congrArg src (lift_row h a k))

/-! ## The tile's matrix product read at an index -/

theorem lhs_dot_0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem lhs_dot_1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
theorem rhs_dot_0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
theorem rhs_dot_1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- Into the zero accumulator, the product of a 1024 × 256 block and a 256 × 1024 block at (a, b) is the sum over
    the 256 contracted positions of the products of row a's and column b's entries. -/
theorem matmul_tile_apply (x : FVec Ideal S1024x256 .bf16) (y : FVec Ideal S256x1024 .bf16) (a b : Fin 1024) :
    matmul dot_S1024x256_S256x1024_S1024x1024_1_0_0_1_n_n none x y (constant (F := Ideal) S1024x1024 .f32 0x00000000#32) (ix2 a b)
      = ∑ k : Fin 256, x (ix2 a k) * y (ix2 k b) := by
  simp only [matmul]
  rw [Ideal.matmul_constant_zero_apply, ← Equiv.sum_comp (ValueIdx.contrEquiv1 dot_S1024x256_S256x1024_S1024x1024_1_0_0_1_n_n 256 rfl rfl).symm]
  refine Finset.sum_congr rfl fun k _ => ?_
  have hk := ValueIdx.contrEquiv1_symm_val dot_S1024x256_S256x1024_S1024x1024_1_0_0_1_n_n 256 rfl rfl k
  have el : dot_S1024x256_S256x1024_S1024x1024_1_0_0_1_n_n.lhsIdx (ix2 a b) ((ValueIdx.contrEquiv1 dot_S1024x256_S256x1024_S1024x1024_1_0_0_1_n_n 256 rfl rfl).symm k) = ix2 a k := funext fun c => Fin.ext (by
    match c with
    | ⟨0, _⟩ => exact lhs_dot_0 _ _
    | ⟨1, _⟩ => exact (lhs_dot_1 _ _).trans hk)
  have er : dot_S1024x256_S256x1024_S1024x1024_1_0_0_1_n_n.rhsIdx (ix2 a b) ((ValueIdx.contrEquiv1 dot_S1024x256_S256x1024_S1024x1024_1_0_0_1_n_n 256 rfl rfl).symm k) = ix2 k b := funext fun c => Fin.ext (by
    match c with
    | ⟨0, _⟩ => exact (rhs_dot_0 _ _).trans hk
    | ⟨1, _⟩ => exact rhs_dot_1 _ _)
  rw [el, er]

/-! ## The tile's distance matrix -/

/-- The keepdims column of squared row norms of a block, read at row a. -/
theorem sqCol_apply (v : FVec Ideal S1024x256 .f32) (a : Fin 1024) (c : Fin 1) :
    shapeCast S1024x1 (multiReduction (F := Ideal) .add [1] S1024 (mulf v v) 0x00000000#32 reduces_S1024x256_S1024 (.inl rfl) rfl)
        shapeCasts_S1024_S1024x1 (ix2 a c)
      = ∑ k : Fin 256, v (ix2 a k) * v (ix2 a k) :=
  (LibKeepdims.shapeCast_a_a1_apply _ _ a c).trans (rowSum_apply (mulf v v) _ _ _ _ a)

/-- The product of the first block with the second block transposed, at (a, b): the inner product of row a of the
    first and row b of the second (the narrowing to bf16 is the identity on the extended reals). -/
theorem gramTile_apply (xr xc : FVec Ideal S1024x256 .f32) (a b : Fin 1024) :
    matmul dot_S1024x256_S256x1024_S1024x1024_1_0_0_1_n_n none (truncf .bf16 xr bitsLt_bf16_f32)
        (transpose S256x1024 [1, 0] (truncf .bf16 xc bitsLt_bf16_f32) transposes_S1024x256_p1_0_S256x1024)
        (constant (F := Ideal) S1024x1024 .f32 0x00000000#32) (ix2 a b)
      = ∑ k : Fin 256, xr (ix2 a k) * xc (ix2 b k) := by
  rw [matmul_tile_apply]
  refine Finset.sum_congr rfl fun k _ => ?_
  rw [ValueIdx.transpose_ix2_apply]
  rfl

/-- Entry (a, b) of the tile's distance matrix is the clamped squared distance of row a of the first block and row b
    of the second. -/
theorem distTile_apply (xr xc : Vec Ideal S1024x256 .f32) (a b : Fin 1024) :
    k0_pay6 xr xc (ix2 a b) = Spec.dist (fun k => xr (ix2 a k)) (fun k => xc (ix2 b k)) := by
  unfold k0_pay6
  rw [shapeCast_self, shapeCast_self]
  simp only [ValueIdx.maximumf_apply, ValueIdx.subf_apply, ValueIdx.addf_apply, ValueIdx.mulf_apply, ValueIdx.broadcast_apply]
  rw [LibKeepdims.broadcastTo_a1_ab_apply, ValueIdx.broadcastTo_1b_ab_apply, ValueIdx.transpose_ix2_apply]
  exact congrArg (max _) (congrArg₂ (· - ·) (congrArg₂ (· + ·) (sqCol_apply xr a 0) (sqCol_apply xc b 0))
    (congrArg (_ * ·) (gramTile_apply xr xc a b)))

/-! ## The label mask and the two masked matrices -/

/-- A select on an integer equality test is the if-then-else on the equality. -/
theorem select_cmpi_eq {α : Type} (x y : BitVec 32) (A B : α) :
    Scalar.select (IntOp.cmpi .eq x y) A B = if x = y then A else B := by
  unfold Scalar.select IntOp.cmpi
  by_cases h : x = y
  · have e : (x == y) = true := beq_iff_eq.2 h
    rw [if_pos h]
    show (if BitVec.ofBool (x == y) = 1#1 then A else B) = A
    rw [e]; exact if_pos rfl
  · have e : (x == y) = false := beq_eq_false_iff_ne.2 h
    rw [if_neg h]
    show (if BitVec.ofBool (x == y) = 1#1 then A else B) = B
    rw [e]; exact if_neg (by decide)

/-- Entry (a, b) of the mask compares row a's label with column b's. -/
theorem mask_apply (tr : Vec Ideal S1024x1 .i32) (tc : Vec Ideal S1x1024 .i32) (a b : Fin 1024) :
    k0_pay7 (F := Ideal) tr tc (ix2 a b) = IntOp.cmpi .eq (tr (ix2 a (0 : Fin 1))) (tc (ix2 (0 : Fin 1) b)) := by
  unfold k0_pay7
  rw [shapeCast_self, shapeCast_self]
  show IntOp.cmpi .eq (broadcastTo S1024x1024 tr _ (ix2 a b)) (broadcastTo S1024x1024 tc _ (ix2 a b)) = _
  rw [LibKeepdims.broadcastTo_a1_ab_apply, ValueIdx.broadcastTo_1b_ab_apply]

/-- The same-label distances, −∞ elsewhere. -/
theorem posMasked_apply (xr xc : Vec Ideal S1024x256 .f32) (tr : Vec Ideal S1024x1 .i32) (tc : Vec Ideal S1x1024 .i32)
    (a b : Fin 1024) :
    k0_pay8 xr xc tr tc (ix2 a b)
      = if tr (ix2 a (0 : Fin 1)) = tc (ix2 (0 : Fin 1) b) then Spec.dist (fun k => xr (ix2 a k)) (fun k => xc (ix2 b k)) else Spec.ninf := by
  unfold k0_pay8
  rw [ValueIdx.select_apply, mask_apply, distTile_apply, select_cmpi_eq]
  rfl

/-- The other-label distances, +∞ elsewhere. -/
theorem negMasked_apply (xr xc : Vec Ideal S1024x256 .f32) (tr : Vec Ideal S1024x1 .i32) (tc : Vec Ideal S1x1024 .i32)
    (a b : Fin 1024) :
    k0_pay9 xr xc tr tc (ix2 a b)
      = if tr (ix2 a (0 : Fin 1)) = tc (ix2 (0 : Fin 1) b) then Spec.pinf else Spec.dist (fun k => xr (ix2 a k)) (fun k => xc (ix2 b k)) := by
  unfold k0_pay9
  rw [ValueIdx.select_apply, mask_apply, distTile_apply, select_cmpi_eq]
  rfl

/-! ## The row maxima and minima of a tile -/

/-- The keepdims column of row maxima of a tile from −∞, read at row a. -/
theorem maxCol_apply (v : FVec Ideal S1024x1024 .f32) (a : Fin 1024) (c : Fin 1) :
    shapeCast S1024x1 (multiReduction (F := Ideal) .maximumf [1] S1024 v 0xFF800000#32 reduces_S1024x1024_S1024 (.inl rfl) rfl)
        shapeCasts_S1024_S1024x1 (ix2 a c)
      = (Finset.univ : Finset (Fin 1024)).fold max Spec.ninf fun b => v (ix2 a b) :=
  (LibKeepdims.shapeCast_a_a1_apply _ _ a c).trans (rowMax_apply v _ _ _ _ a)

/-- The keepdims column of row minima of a tile from +∞, read at row a. -/
theorem minCol_apply (v : FVec Ideal S1024x1024 .f32) (a : Fin 1024) (c : Fin 1) :
    shapeCast S1024x1 (multiReduction (F := Ideal) .minimumf [1] S1024 v 0x7F800000#32 reduces_S1024x1024_S1024 (.inl rfl) rfl)
        shapeCasts_S1024_S1024x1 (ix2 a c)
      = (Finset.univ : Finset (Fin 1024)).fold min Spec.pinf fun b => v (ix2 a b) :=
  (LibKeepdims.shapeCast_a_a1_apply _ _ a c).trans (rowMin_apply v _ _ _ _ a)

/-! ## The stored values -/

/-- The reset values: −∞ and +∞ in every entry. -/
theorem posInit_apply (a : Fin 1024) : posInit (F := Ideal) (ix2 a (0 : Fin 1)) = Spec.ninf := by
  unfold posInit k0_pay4
  rw [shapeCast_self]
  rfl
theorem negInit_apply (a : Fin 1024) : negInit (F := Ideal) (ix2 a (0 : Fin 1)) = Spec.pinf := by
  unfold negInit k0_pay5
  rw [shapeCast_self]
  rfl

/-- One tile folded into the running maximum, at row a. -/
theorem posStep_apply (xr xc : Vec Ideal S1024x256 .f32) (tr : Vec Ideal S1024x1 .i32) (tc : Vec Ideal S1x1024 .i32)
    (p : Vec Ideal S1024x1 .f32) (a : Fin 1024) :
    posStep xr xc tr tc p (ix2 a (0 : Fin 1))
      = max (p (ix2 a (0 : Fin 1))) ((Finset.univ : Finset (Fin 1024)).fold max Spec.ninf fun b =>
          if tr (ix2 a (0 : Fin 1)) = tc (ix2 (0 : Fin 1) b) then Spec.dist (fun k => xr (ix2 a k)) (fun k => xc (ix2 b k)) else Spec.ninf) := by
  unfold posStep k0_pay1
  rw [shapeCast_self, ValueIdx.maximumf_apply]
  refine congrArg (max _) ((maxCol_apply _ a 0).trans ?_)
  exact congrArg (fun f => Finset.fold max Spec.ninf f (Finset.univ : Finset (Fin 1024)))
    (funext fun b => posMasked_apply xr xc tr tc a b)

/-- One tile folded into the running minimum, at row a. -/
theorem negStep_apply (xr xc : Vec Ideal S1024x256 .f32) (tr : Vec Ideal S1024x1 .i32) (tc : Vec Ideal S1x1024 .i32)
    (n : Vec Ideal S1024x1 .f32) (a : Fin 1024) :
    negStep xr xc tr tc n (ix2 a (0 : Fin 1))
      = min (n (ix2 a (0 : Fin 1))) ((Finset.univ : Finset (Fin 1024)).fold min Spec.pinf fun b =>
          if tr (ix2 a (0 : Fin 1)) = tc (ix2 (0 : Fin 1) b) then Spec.pinf else Spec.dist (fun k => xr (ix2 a k)) (fun k => xc (ix2 b k))) := by
  unfold negStep k0_pay2
  rw [shapeCast_self, ValueIdx.minimumf_apply]
  refine congrArg (min _) ((minCol_apply _ a 0).trans ?_)
  exact congrArg (fun f => Finset.fold min Spec.pinf f (Finset.univ : Finset (Fin 1024)))
    (funext fun b => negMasked_apply xr xc tr tc a b)

/-- The output block from the two finished columns, at row a. -/
theorem outOf_apply (p n : Vec Ideal S1024x1 .f32) (a : Fin 1024) :
    outOf p n (ix2 a (0 : Fin 1)) = max ((p (ix2 a (0 : Fin 1)) - n (ix2 a (0 : Fin 1))) + Spec.margin) Spec.zero := by
  unfold outOf k0_pay3
  rfl

end Cert.KernelIdeal.Hand

end
-- ==== Proof.KI.Blocks.lean ====
/-
  The windows' blocks and the output array, entry by entry.

  Point t = 8·i + k of the grid stages rows 1024·i … 1024·i + 1023 of the normalised rows through the first window and
  rows 1024·k … through the second, the labels of the same rows through the third (as a column) and the fourth (as a row);
  the output window's block i is written back once, at point 8·i + 7, so row 1024·i + a of the output array after the
  run is entry a of what that point stored.
-/
import proofs.«154702_j16406775070902_1_alg».proof.Proof.KI.Data
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx (ix1 ix2)

open Idealize.ShloMosaic.Pipeline (Dat Cfg Window)

variable {F : FTy → Type} [FloatOps F]
variable (m : (ℓ : Loc nD τ sig) → Buf (Elt F) ℓ)

/-- The normalised rows as the region finds them, and the labels as launched, at their literal types. -/
abbrev vsArr (c : Dev nD) : Vec F S8192x256 .f32 := V m c main_v5
abbrev tgArr (c : Dev nD) : Vec F S8192 .i32 := m ((c.tc : Thread nD τ).loc main_arg1)

/-- The nine host operations before the region, on the launched inputs: each row divided by its Euclidean norm. -/
def normRows (x : Vec F S8192x256 .f32) : Vec F S8192x256 .f32 :=
  Host.divf x (broadcastInDim S8192x256 ![0, 1] bcast_S8192x1_S8192x256_0_1 (Host.sqrt (broadcastInDim S8192x1 ![0] bcast_S8192_S8192x1_0
    (Host.reduceAdd (mulf x x) (constant S_ .f32 0x00000000#32) reducesTo_S8192x256_S8192_d1 h_S_))))

/-! ## Which block each window is on at point t = 8·i + k -/

/-- The row tile's window is on block (i, 0): i = t / 8. -/
theorem rowTile_index : ∀ t : Fin cfg0.N, win0_0.index t (0 : Fin 2) = t.val / 8 ∧ win0_0.index t (1 : Fin 2) = 0 :=
  (by decide +kernel : ∀ t : Fin grid0.N, _)
/-- The column tile's window is on block (k, 0): k = t % 8. -/
theorem colTile_index : ∀ t : Fin cfg0.N, win0_1.index t (0 : Fin 2) = t.val % 8 ∧ win0_1.index t (1 : Fin 2) = 0 :=
  (by decide +kernel : ∀ t : Fin grid0.N, _)
/-- The label column's window is on block (i, 0). -/
theorem rowLab_index : ∀ t : Fin cfg0.N, win0_2.index t (0 : Fin 2) = t.val / 8 ∧ win0_2.index t (1 : Fin 2) = 0 :=
  (by decide +kernel : ∀ t : Fin grid0.N, _)
/-- The label row's window is on block (0, k). -/
theorem colLab_index : ∀ t : Fin cfg0.N, win0_3.index t (0 : Fin 2) = 0 ∧ win0_3.index t (1 : Fin 2) = t.val % 8 :=
  (by decide +kernel : ∀ t : Fin grid0.N, _)
/-- The output's window is on block (i, 0). -/
theorem out_index : ∀ t : Fin cfg0.N, win0_4.index t (0 : Fin 2) = t.val / 8 ∧ win0_4.index t (1 : Fin 2) = 0 :=
  (by decide +kernel : ∀ t : Fin grid0.N, _)

/-! ## The arrays the host lines before the region wrote -/

/-- The label column the region finds is the launched label vector laid out as 8192 × 1; -/
theorem labCol_eq (c : Dev nD) :
    (V m c main_v6 : S8192x1.Idx → Elt F .i32) = shapeCast S8192x1 (m ((c.tc : Thread nD τ).loc main_arg1)) shapeCasts_S8192_S8192x1 := by
  dsimp only [V, V0, hostOps0]
  after_results
  rfl

/-- the label row is the same vector laid out as 1 × 8192. -/
theorem labRow_eq (c : Dev nD) :
    (V m c main_v7 : S1x8192.Idx → Elt F .i32) = shapeCast S1x8192 (m ((c.tc : Thread nD τ).loc main_arg1)) shapeCasts_S8192_S1x8192 := by
  dsimp only [V, V0, hostOps0]
  after_results
  rfl

/-- The rows the region finds are the launched rows, each divided by its Euclidean norm: the squares, their row sums,
    the square roots, spread back along the rows, and the quotient, composed. -/
theorem vsArr_eq (c : Dev nD) : vsArr m c = normRows (m ((c.tc : Thread nD τ).loc main_arg0)) := by
  unfold normRows
  show (V m c main_v5 : S8192x256.Idx → Elt F .f32) = _
  dsimp only [V, V0, hostOps0]
  after_results

/-! ## The blocks, entry by entry

An entry of a block sits in the array, on each axis, at block index × block size + its coordinate inside the block. -/

/-- Row a of the row tile's block at point t is row 1024·(t / 8) + a of the normalised rows; -/
theorem rowBlk_apply (c : Dev nD) (t : Fin cfg0.N) (a : Fin 1024) (k : Fin 256) :
    rowBlk m c t (ix2 a k) = vsArr m c (ix2 (⟨1024 * (t.val / 8) + a.val, by have := t.isLt; have : cfg0.N = 64 := N_0; omega⟩ : Fin 8192) k) := by
  unfold rowBlk iblk
  rw [View.read_apply]
  show V m c main_v5 (((cfg0.win 0).blk t).view.emb (ix2 a k)) = V m c main_v5 _
  refine congrArg (V m c main_v5) (funext fun x => Fin.ext ?_)
  obtain ⟨e0, e1⟩ := rowTile_index t
  match x with
  | ⟨0, _⟩ => show win0_0.index t (0 : Fin 2) * 1024 + 1 * a.val = 1024 * (t.val / 8) + a.val; omega
  | ⟨1, _⟩ => show win0_0.index t (1 : Fin 2) * 256 + 1 * k.val = k.val; omega
/-- row b of the column tile's block is row 1024·(t % 8) + b. -/
theorem colBlk_apply (c : Dev nD) (t : Fin cfg0.N) (b : Fin 1024) (k : Fin 256) :
    colBlk m c t (ix2 b k) = vsArr m c (ix2 (⟨1024 * (t.val % 8) + b.val, by omega⟩ : Fin 8192) k) := by
  unfold colBlk iblk
  rw [View.read_apply]
  show V m c main_v5 (((cfg0.win 1).blk t).view.emb (ix2 b k)) = V m c main_v5 _
  refine congrArg (V m c main_v5) (funext fun x => Fin.ext ?_)
  obtain ⟨e0, e1⟩ := colTile_index t
  match x with
  | ⟨0, _⟩ => show win0_1.index t (0 : Fin 2) * 1024 + 1 * b.val = 1024 * (t.val % 8) + b.val; omega
  | ⟨1, _⟩ => show win0_1.index t (1 : Fin 2) * 256 + 1 * k.val = k.val; omega
/-- The labels of the same rows. -/
theorem rowLab_apply (c : Dev nD) (t : Fin cfg0.N) (a : Fin 1024) :
    rowLab m c t (ix2 a (0 : Fin 1)) = tgArr m c (ix1 (⟨1024 * (t.val / 8) + a.val, by have := t.isLt; have : cfg0.N = 64 := N_0; omega⟩ : Fin 8192)) := by
  unfold rowLab iblk
  rw [View.read_apply]
  show V m c main_v6 (((cfg0.win 2).blk t).view.emb (ix2 a (0 : Fin 1))) = _
  rw [labCol_eq]
  -- entry (r, 0) of the 8192 × 1 layout and entry r of the vector have the same row-major position
  refine shapeCast_apply _ _ _ _ ?_
  show ((⟨1, ![8192]⟩ : Shape).rowMajor _).val = ((⟨2, ![8192, 1]⟩ : Shape).rowMajor _).val
  rw [Shape.rowMajor_val_one, Shape.rowMajor_val_two]
  obtain ⟨e0, e1⟩ := rowLab_index t
  show 1024 * (t.val / 8) + a.val = (win0_2.index t (0 : Fin 2) * 1024 + 1 * a.val) * 1 + (win0_2.index t (1 : Fin 2) * 1 + 1 * 0)
  omega
theorem colLab_apply (c : Dev nD) (t : Fin cfg0.N) (b : Fin 1024) :
    colLab m c t (ix2 (0 : Fin 1) b) = tgArr m c (ix1 (⟨1024 * (t.val % 8) + b.val, by omega⟩ : Fin 8192)) := by
  unfold colLab iblk
  rw [View.read_apply]
  show V m c main_v7 (((cfg0.win 3).blk t).view.emb (ix2 (0 : Fin 1) b)) = _
  rw [labRow_eq]
  -- entry (0, r) of the 1 × 8192 layout and entry r of the vector have the same row-major position
  refine shapeCast_apply _ _ _ _ ?_
  show ((⟨1, ![8192]⟩ : Shape).rowMajor _).val = ((⟨2, ![1, 8192]⟩ : Shape).rowMajor _).val
  rw [Shape.rowMajor_val_one, Shape.rowMajor_val_two]
  obtain ⟨e0, e1⟩ := colLab_index t
  show 1024 * (t.val % 8) + b.val = (win0_3.index t (0 : Fin 2) * 1 + 1 * 0) * 8192 + (win0_3.index t (1 : Fin 2) * 1024 + 1 * b.val)
  omega

/-! ## The output array

Only the points t ≡ 7 (mod 8) write the output's block back, point 8·i + 7 to rows 1024·i … 1024·i + 1023: the eight
blocks written are disjoint and tile the array, so the array ends as ONE function of the row — row r holds entry
r % 1024 of what point 8·(r / 1024) + 7 stored. -/

/-- That function. -/
def outFn (c : Dev nD) : S8192x1.Idx → Elt F .f32 := fun i =>
  outAt m c (⟨8 * ((i 0).val / 1024) + 7, by have : (i 0).val < 8192 := (i 0).isLt; have : cfg0.N = 64 := N_0; omega⟩ : Fin cfg0.N)
    (ix2 (⟨(i 0).val % 1024, Nat.mod_lt _ (by decide)⟩ : Fin 1024) (0 : Fin 1))

/-- At row 1024·(t / 8) + y₀ with t ≡ 7 (mod 8) it is entry y of point t's stored block: 8·(t / 8) + 7 = t. -/
theorem outFn_of_row (c : Dev nD) (t : Fin cfg0.N) (h7 : t.val % 8 = 7) (y : S1024x1.Idx) (i : S8192x1.Idx)
    (h0 : (i 0).val = t.val / 8 * 1024 + (y 0).val) : outFn m c i = outAt m c t y := by
  have hy : (y 0).val < 1024 := (y 0).isLt
  have hy1 : (y 1).val < 1 := (y 1).isLt
  unfold outFn
  refine congr (congrArg (outAt m c) (Fin.ext ?_)) (funext fun a => Fin.ext ?_)
  · show 8 * ((i 0).val / 1024) + 7 = t.val
    omega
  · match a with
    | ⟨0, _⟩ => show (i 0).val % 1024 = (y 0).val; omega
    | ⟨1, _⟩ => show 0 = (y 1).val; omega

/-- An index of the array is under point t's block iff each coordinate is in the block's range on its axis. -/
theorem mem_outBlk (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v8).slice (win0_4.rect t)).set ↔ _
  rw [View.set_slice_whole, Rect.mem_set_unit]
  exact Iff.rfl

/-- What a point that writes back writes is its block of that function. -/
theorem flushed_out_eq (c : Dev nD) (t : Fin cfg0.N) (hf : (cfg0.win 4).flush t = true) :
    (dats m 0 c).flushed 4 t = ((cfg0.win 4).blk t).view.read (Elt F) (outFn m c) := by
  have h7 : t.val % 8 = 7 := (flush0_4 t).mp hf
  show (cfg0.win 4).cut (grid0.coords t) ((dats m 0 c).after 4 t) = _
  rw [after4]
  funext y
  rw [View.read_apply]
  show outAt m c t y = outFn m c (((cfg0.win 4).blk t).view.emb y)
  refine (outFn_of_row m c t h7 y _ ?_).symm
  obtain ⟨e0, e1⟩ := out_index t
  show win0_4.index t (0 : Fin 2) * 1024 + 1 * (y 0).val = t.val / 8 * 1024 + (y 0).val
  omega

/-- So a row under the block of a point t ≡ 7 (mod 8) ends at that point's stored block: later points that write back
    write other rows. -/
theorem outArr_of_row (c : Dev nD) (t : Fin cfg0.N) (h7 : t.val % 8 = 7) (y : S1024x1.Idx) (i : S8192x1.Idx)
    (h0 : (i 0).val = t.val / 8 * 1024 + (y 0).val) : outArr m c i = outAt m c t y := by
  have hy : (y 0).val < 1024 := (y 0).isLt
  have hi1 : (i 1).val < 1 := (i 1).isLt
  unfold outArr
  rw [(dats m 0 c).arrAt_apply_of_mem 4 (outFn m c) (flushed_out_eq m c) cfg0.N t i t.isLt ((flush0_4 t).mpr h7) ?_]
  · exact outFn_of_row m c t h7 y i h0
  · rw [mem_outBlk]
    obtain ⟨e0, e1⟩ := out_index t
    intro x
    match x with
    | ⟨0, _⟩ => show win0_4.index t (0 : Fin 2) * 1024 ≤ (i 0).val ∧ (i 0).val < win0_4.index t (0 : Fin 2) * 1024 + 1024; omega
    | ⟨1, _⟩ => show win0_4.index t (1 : Fin 2) * 1 ≤ (i 1).val ∧ (i 1).val < win0_4.index t (1 : Fin 2) * 1 + 1; omega

/-- Row 1024·i + a of the output array after the run is entry a of the block stored at point 8·i + 7. -/
theorem outArr_apply (c : Dev nD) (i : Fin 8) (a : Fin 1024) :
    outArr m c (ix2 (⟨1024 * i.val + a.val, by omega⟩ : Fin 8192) (0 : Fin 1))
      = outAt m c (⟨8 * i.val + 7, by have : cfg0.N = 64 := N_0; omega⟩ : Fin cfg0.N) (ix2 a (0 : Fin 1)) := by
  refine outArr_of_row m c _ ?_ _ _ ?_
  · show (8 * i.val + 7) % 8 = 7; omega
  · show 1024 * i.val + a.val = (8 * i.val + 7) / 8 * 1024 + a.val; omega

end Cert.KernelIdeal.Hand

end
-- ==== Proof.SpecTiles.lean ====
/-
  The running maximum over the eight column tiles is the maximum over all 8192 columns, and dually for the minimum:
  −∞ (+∞) is the bottom (top) of the extended reals, max (min) is associative and commutative, and the columns are the
  disjoint union of the tiles.

  Both sides are characterised as a least upper bound (greatest lower bound).  A fold of max from ⊥ is the finite
  supremum.  Every column j is column j mod 1024 of tile j / 1024, so f j is below that tile's maximum, which is below
  every later running maximum; conversely each tile's maximum, and hence each running maximum, is below any common
  upper bound of the values of f.
-/
import proofs.«154702_j16406775070902_1_alg».proof.Proof.Spec
import Mathlib.Data.Finset.Lattice.Fold

noncomputable section

namespace Cert.Spec

open Idealize.ShloMosaic

/-! ## Folds from the extreme elements are finite suprema and infima -/

/-- A fold of max from −∞ is the finite supremum: −∞ is ⊥, and on a linear order ⊔ is max. -/
theorem fold_max_eq_sup {ι : Type*} (s : Finset ι) (g : ι → EReal) : s.fold max ninf g = s.sup g := by
  rw [ninf_eq_bot]; rfl

/-- A fold of min from +∞ is the finite infimum: +∞ is ⊤, and on a linear order ⊓ is min. -/
theorem fold_min_eq_inf {ι : Type*} (s : Finset ι) (g : ι → EReal) : s.fold min pinf g = s.inf g := by
  rw [pinf_eq_top]; rfl

/-- Every column lies in exactly one tile: column j is column j mod 1024 of tile j / 1024. -/
theorem col_eq_tileIdx (j : Fin 8192) :
    j = tileIdx ⟨j.val / 1024, by omega⟩ ⟨j.val % 1024, by omega⟩ := by
  apply Fin.ext
  simp only [tileIdx]
  omega

/-! ## The maximum -/

/-- A value of f on tile k is below the tile's maximum. -/
theorem le_tileMax (f : Fin 8192 → EReal) (k : Fin 8) (b : Fin 1024) : f (tileIdx k b) ≤ tileMax f k.val := by
  unfold tileMax
  rw [fold_max_eq_sup]
  have h := Finset.le_sup (f := fun b => if h : k.val < 8 then f (tileIdx ⟨k.val, h⟩ b) else ninf) (Finset.mem_univ b)
  simpa [k.isLt] using h

/-- A common upper bound of the values of f bounds every tile's maximum (past the last tile the maximum is −∞). -/
theorem tileMax_le (f : Fin 8192 → EReal) (c : EReal) (hc : ∀ j, f j ≤ c) (k : ℕ) : tileMax f k ≤ c := by
  unfold tileMax
  rw [fold_max_eq_sup]
  refine Finset.sup_le fun b _ => ?_
  by_cases h : k < 8
  · simp only [dif_pos h]; exact hc _
  · simp only [dif_neg h, ninf_eq_bot]; exact bot_le

/-- The maximum of tile k is below the running maximum after any tile n ≥ k. -/
theorem tileMax_le_runMax (f : Fin 8192 → EReal) : ∀ n k, k ≤ n → tileMax f k ≤ runMax f n
  | 0, k, h => by
    have hk : k = 0 := by omega
    subst hk
    exact le_max_right _ _
  | n + 1, k, h => by
    rcases Nat.lt_or_ge k (n + 1) with h' | h'
    · exact le_trans (tileMax_le_runMax f n k (by omega)) (le_max_left _ _)
    · have hk : k = n + 1 := by omega
      subst hk
      exact le_max_right _ _

/-- A common upper bound of the values of f bounds every running maximum. -/
theorem runMax_le (f : Fin 8192 → EReal) (c : EReal) (hc : ∀ j, f j ≤ c) : ∀ n, runMax f n ≤ c
  | 0 => max_le (by rw [ninf_eq_bot]; exact bot_le) (tileMax_le f c hc 0)
  | n + 1 => max_le (runMax_le f c hc n) (tileMax_le f c hc (n + 1))

/-- After the eighth tile the running maximum is the maximum over all columns. -/
theorem runMax_seven (f : Fin 8192 → EReal) : runMax f 7 = (Finset.univ : Finset (Fin 8192)).fold max ninf f := by
  rw [fold_max_eq_sup]
  apply le_antisymm
  · exact runMax_le f _ (fun j => Finset.le_sup (Finset.mem_univ j)) 7
  · refine Finset.sup_le fun j _ => ?_
    have h1 := le_tileMax f ⟨j.val / 1024, by omega⟩ ⟨j.val % 1024, by omega⟩
    rw [← col_eq_tileIdx j] at h1
    exact le_trans h1 (tileMax_le_runMax f 7 _ (by have := j.isLt; simp only; omega))

/-! ## The minimum, in the dual order -/

/-- The tile's minimum is below every value of f on the tile. -/
theorem tileMin_le (f : Fin 8192 → EReal) (k : Fin 8) (b : Fin 1024) : tileMin f k.val ≤ f (tileIdx k b) := by
  unfold tileMin
  rw [fold_min_eq_inf]
  have h := Finset.inf_le (f := fun b => if h : k.val < 8 then f (tileIdx ⟨k.val, h⟩ b) else pinf) (Finset.mem_univ b)
  simpa [k.isLt] using h

/-- A common lower bound of the values of f is below every tile's minimum (past the last tile the minimum is +∞). -/
theorem le_tileMin (f : Fin 8192 → EReal) (c : EReal) (hc : ∀ j, c ≤ f j) (k : ℕ) : c ≤ tileMin f k := by
  unfold tileMin
  rw [fold_min_eq_inf]
  refine Finset.le_inf fun b _ => ?_
  by_cases h : k < 8
  · simp only [dif_pos h]; exact hc _
  · simp only [dif_neg h, pinf_eq_top]; exact le_top

/-- The running minimum after any tile n ≥ k is below the minimum of tile k. -/
theorem runMin_le_tileMin (f : Fin 8192 → EReal) : ∀ n k, k ≤ n → runMin f n ≤ tileMin f k
  | 0, k, h => by
    have hk : k = 0 := by omega
    subst hk
    exact min_le_right _ _
  | n + 1, k, h => by
    rcases Nat.lt_or_ge k (n + 1) with h' | h'
    · exact le_trans (min_le_left _ _) (runMin_le_tileMin f n k (by omega))
    · have hk : k = n + 1 := by omega
      subst hk
      exact min_le_right _ _

/-- A common lower bound of the values of f is below every running minimum. -/
theorem le_runMin (f : Fin 8192 → EReal) (c : EReal) (hc : ∀ j, c ≤ f j) : ∀ n, c ≤ runMin f n
  | 0 => le_min (by rw [pinf_eq_top]; exact le_top) (le_tileMin f c hc 0)
  | n + 1 => le_min (le_runMin f c hc n) (le_tileMin f c hc (n + 1))

/-- After the eighth tile the running minimum is the minimum over all columns. -/
theorem runMin_seven (f : Fin 8192 → EReal) : runMin f 7 = (Finset.univ : Finset (Fin 8192)).fold min pinf f := by
  rw [fold_min_eq_inf]
  apply le_antisymm
  · refine Finset.le_inf fun j _ => ?_
    have h1 := tileMin_le f ⟨j.val / 1024, by omega⟩ ⟨j.val % 1024, by omega⟩
    rw [← col_eq_tileIdx j] at h1
    exact le_trans (runMin_le_tileMin f 7 _ (by have := j.isLt; simp only; omega)) h1
  · exact le_runMin f _ (fun j => Finset.inf_le (Finset.mem_univ j)) 7

end Cert.Spec

end
-- ==== Proof.KI.Value.lean ====
/-
  The output array, row by row, on the extended reals: row r = 1024·i + a of the array the pipeline writes back holds
  the batch-hard loss of row r.

  Along a row tile's eight points the running-maximum column at row a is the running maximum, tile by tile, of row r's
  positive candidates, and the running-minimum column of its negative candidates; after the eighth tile these are the
  maximum and the minimum over all 8192 columns, and the block stored there is the row losses.
-/
import proofs.«154702_j16406775070902_1_alg».proof.Proof.KI.PayVal
import proofs.«154702_j16406775070902_1_alg».proof.Proof.KI.Blocks
import proofs.«154702_j16406775070902_1_alg».proof.Proof.SpecTiles

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx (ix1 ix2)

open Idealize.ShloMosaic.Pipeline (Dat Cfg Window)

variable (m : (ℓ : Loc nD τ sig) → Buf (Elt Ideal) ℓ)

/-- The normalised rows and the labels as the mathematics takes them. -/
abbrev vsF (c : Dev nD) : Fin 8192 → Fin 256 → EReal := fun r k => vsArr m c (ix2 r k)
abbrev tgF (c : Dev nD) : Fin 8192 → BitVec 32 := fun r => tgArr m c (ix1 r)

/-- Row 1024·i + a. -/
abbrev rowOf (i : Fin 8) (a : Fin 1024) : Fin 8192 := ⟨1024 * i.val + a.val, by omega⟩
/-- Point 8·i + k. -/
abbrev ptOf (i : Fin 8) (k : ℕ) (hk : k < 8) : Fin cfg0.N := ⟨8 * i.val + k, by have : cfg0.N = 64 := N_0; omega⟩

/-- One tile folded into the running maximum at point 8·i + k, row a: the old entry against tile k's maximum of row
    r's positive candidates. -/
theorem posStep_tile (c : Dev nD) (i : Fin 8) (k : ℕ) (hk : k < 8) (a : Fin 1024) (p : Vec Ideal S1024x1 .f32) :
    posStep (rowBlk m c (ptOf i k hk)) (colBlk m c (ptOf i k hk)) (rowLab m c (ptOf i k hk)) (colLab m c (ptOf i k hk)) p (ix2 a (0 : Fin 1))
      = max (p (ix2 a (0 : Fin 1))) (Spec.tileMax (Spec.posC (vsF m c) (tgF m c) (rowOf i a)) k) := by
  rw [posStep_apply]
  have hd : (8 * i.val + k) / 8 = i.val := by omega
  have hm : (8 * i.val + k) % 8 = k := by omega
  have er : ∀ h, (⟨1024 * ((ptOf i k hk).val / 8) + a.val, h⟩ : Fin 8192) = rowOf i a := fun h => Fin.ext (by show 1024 * ((8 * i.val + k) / 8) + a.val = _; rw [hd])
  have ec : ∀ (b : Fin 1024) h, (⟨1024 * ((ptOf i k hk).val % 8) + b.val, h⟩ : Fin 8192) = Spec.tileIdx ⟨k, hk⟩ b := fun b h => Fin.ext (by show 1024 * ((8 * i.val + k) % 8) + b.val = _; rw [hm]; rfl)
  congr 1
  unfold Spec.tileMax
  congr 1
  funext b
  rw [dif_pos hk]
  unfold Spec.posC
  simp only [rowLab_apply, colLab_apply, rowBlk_apply, colBlk_apply, er, ec]

/-- The same for the running minimum. -/
theorem negStep_tile (c : Dev nD) (i : Fin 8) (k : ℕ) (hk : k < 8) (a : Fin 1024) (n : Vec Ideal S1024x1 .f32) :
    negStep (rowBlk m c (ptOf i k hk)) (colBlk m c (ptOf i k hk)) (rowLab m c (ptOf i k hk)) (colLab m c (ptOf i k hk)) n (ix2 a (0 : Fin 1))
      = min (n (ix2 a (0 : Fin 1))) (Spec.tileMin (Spec.negC (vsF m c) (tgF m c) (rowOf i a)) k) := by
  rw [negStep_apply]
  have hd : (8 * i.val + k) / 8 = i.val := by omega
  have hm : (8 * i.val + k) % 8 = k := by omega
  have er : ∀ h, (⟨1024 * ((ptOf i k hk).val / 8) + a.val, h⟩ : Fin 8192) = rowOf i a := fun h => Fin.ext (by show 1024 * ((8 * i.val + k) / 8) + a.val = _; rw [hd])
  have ec : ∀ (b : Fin 1024) h, (⟨1024 * ((ptOf i k hk).val % 8) + b.val, h⟩ : Fin 8192) = Spec.tileIdx ⟨k, hk⟩ b := fun b h => Fin.ext (by show 1024 * ((8 * i.val + k) % 8) + b.val = _; rw [hm]; rfl)
  congr 1
  unfold Spec.tileMin
  congr 1
  funext b
  rw [dif_pos hk]
  unfold Spec.negC
  simp only [rowLab_apply, colLab_apply, rowBlk_apply, colBlk_apply, er, ec]

/-- Along row tile i the two columns at row a are the running maximum and minimum of row r's candidates. -/
theorem accAt_run (c : Dev nD) (i : Fin 8) (a : Fin 1024) : ∀ (k : ℕ) (hk : k < 8),
    (accAt m c (ptOf i k hk).val (ptOf i k hk).isLt).1 (ix2 a (0 : Fin 1)) = Spec.runMax (Spec.posC (vsF m c) (tgF m c) (rowOf i a)) k
    ∧ (accAt m c (ptOf i k hk).val (ptOf i k hk).isLt).2 (ix2 a (0 : Fin 1)) = Spec.runMin (Spec.negC (vsF m c) (tgF m c) (rowOf i a)) k := by
  intro k
  induction k with
  | zero =>
    intro hk
    have h0 : (ptOf i 0 hk).val % 8 = 0 := by show (8 * i.val + 0) % 8 = 0; omega
    rw [accAt_reset m c (ptOf i 0 hk) h0]
    refine ⟨?_, ?_⟩
    · show posStep _ _ _ _ posInit (ix2 a (0 : Fin 1)) = _
      rw [posStep_tile m c i 0 hk a posInit, posInit_apply]; rfl
    · show negStep _ _ _ _ negInit (ix2 a (0 : Fin 1)) = _
      rw [negStep_tile m c i 0 hk a negInit, negInit_apply]; rfl
  | succ k ih =>
    intro hk
    have h0 : ¬ (ptOf i (k + 1) hk).val % 8 = 0 := by show ¬ (8 * i.val + (k + 1)) % 8 = 0; omega
    obtain ⟨ihp, ihn⟩ := ih (by omega)
    rw [accAt_step m c (ptOf i (k + 1) hk) h0]
    have hprev : (ptOf i (k + 1) hk).val - 1 = (ptOf i k (by omega)).val := by show 8 * i.val + (k + 1) - 1 = 8 * i.val + k; omega
    refine ⟨?_, ?_⟩
    · show posStep _ _ _ _ _ (ix2 a (0 : Fin 1)) = _
      rw [posStep_tile m c i (k + 1) hk a]
      simp only [hprev]
      rw [ihp]; rfl
    · show negStep _ _ _ _ _ (ix2 a (0 : Fin 1)) = _
      rw [negStep_tile m c i (k + 1) hk a]
      simp only [hprev]
      rw [ihn]; rfl

/-- Row 1024·i + a of the output array is row r's loss. -/
theorem outArr_tile (c : Dev nD) (i : Fin 8) (a : Fin 1024) :
    outArr m c (ix2 (rowOf i a) (0 : Fin 1)) = Spec.rowLoss (vsF m c) (tgF m c) (rowOf i a) := by
  rw [outArr_apply m c i a]
  obtain ⟨hp, hn⟩ := accAt_run m c i a 7 (by omega)
  show outOf (accAt m c (ptOf i 7 (by omega)).val (ptOf i 7 (by omega)).isLt).1 (accAt m c (ptOf i 7 (by omega)).val (ptOf i 7 (by omega)).isLt).2 (ix2 a (0 : Fin 1)) = _
  rw [outOf_apply, hp, hn, Spec.runMax_seven, Spec.runMin_seven]
  rfl

/-- Every row of the output array is its row's loss. -/
theorem outArr_row (c : Dev nD) (r : Fin 8192) :
    outArr m c (ix2 r (0 : Fin 1)) = Spec.rowLoss (vsF m c) (tgF m c) r := by
  have hr : r = rowOf ⟨r.val / 1024, by omega⟩ ⟨r.val % 1024, Nat.mod_lt _ (by norm_num)⟩ := Fin.ext (by show r.val = 1024 * (r.val / 1024) + r.val % 1024; omega)
  rw [hr]
  exact outArr_tile m c _ _

end Cert.KernelIdeal.Hand

end
-- ==== Proof.Ref.Value.lean ====
/-
  The reference, row by row, on the extended reals: entry r of the per-row loss vector the reference sums is the
  batch-hard loss of row r — the largest clamped squared distance to a row with the same label minus the smallest to a
  row with another label, plus the margin, clamped at zero — of the normalised rows it computes.
-/
import proofs.«154702_j16406775070902_1_alg».proof.Proof.Gen.ReferenceIdeal.Read
import proofs.«154702_j16406775070902_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem
open Idealize.ShloMosaic.ValueIdx (ix1 ix2)

/-- Row r's reduced index with column k put back is (r, k). -/
theorem lift_row (h : S8192x8192.Reduces [1] S8192) (r : Fin 8192) (k : Fin (S8192x8192.size 1)) :
    h.lift (ix1 r) k = ix2 r (⟨k.val, k.isLt⟩ : Fin 8192) := by
  funext c; apply Fin.ext
  fin_cases c <;> rfl

/-! ## The composed index functions at (r, j) -/

theorem idx_lab_row (r j : Fin 8192) : idx_main_v19 (idx_main_v21 (ix2 r j)) = ix1 r :=
  funext fun a => Fin.ext (by match a with | ⟨0, _⟩ => rfl)
theorem idx_lab_col (r j : Fin 8192) : idx_main_v20 (idx_main_v22 (ix2 r j)) = ix1 j :=
  funext fun a => Fin.ext (by match a with | ⟨0, _⟩ => rfl)
theorem idx_norm_row (r j : Fin 8192) : idx_main_v8 (idx_main_v10 (ix2 r j)) = ix1 r :=
  funext fun a => Fin.ext (by match a with | ⟨0, _⟩ => rfl)
theorem idx_norm_col (r j : Fin 8192) : idx_main_v9 (idx_main_v11 (ix2 r j)) = ix1 j :=
  funext fun a => Fin.ext (by match a with | ⟨0, _⟩ => rfl)
theorem idx_sq (r : Fin 8192) (k : Fin 256) : idx_main_v7 (ix1 r) k = ix2 r k :=
  funext fun a => Fin.ext (by match a with | ⟨0, _⟩ => rfl | ⟨1, _⟩ => rfl)
theorem idx_dot_l (r j : Fin 8192) (k : Fin 256) : lidx_main_v14 (ix2 r j) k = ix2 r k :=
  funext fun a => Fin.ext (by match a with | ⟨0, _⟩ => rfl | ⟨1, _⟩ => rfl)
theorem idx_dot_r (r j : Fin 8192) (k : Fin 256) : idx_main_v13 (ridx_main_v14 (ix2 r j) k) = ix2 j k :=
  funext fun a => Fin.ext (by match a with | ⟨0, _⟩ => rfl | ⟨1, _⟩ => rfl)

/-- The label comparison at (r, j). -/
theorem v23_at (x1 : (⟨S8192, .i32⟩ : BufTy).Contents (Elt Ideal)) (r j : Fin 8192) :
    val_main_v23 (F := Ideal) x1 (ix2 r j) = IntOp.cmpi .eq (x1 (ix1 r)) (x1 (ix1 j)) := by
  rw [val_main_v23_apply, val_main_v21_apply, val_main_v19_apply, val_main_v22_apply, val_main_v20_apply,
    idx_lab_row, idx_lab_col]

/-- A row's sum of squares. -/
theorem v7_at (x0 : (⟨S8192x256, .f32⟩ : BufTy).Contents (Elt Ideal)) (r : Fin 8192) :
    val_main_v7 (F := Ideal) x0 (ix1 r) = Spec.sq (fun k => val_main_v5 (F := Ideal) x0 (ix2 r k)) := by
  rw [val_main_v7_apply, val_main_cst_0_apply]
  simp only [val_main_v6_apply, idx_sq, Ideal.ofBits_def, Ideal.mulf_def]
  rw [Ideal.ofBits_zero_f32, zero_add]
  rfl

/-- Two rows' inner product. -/
theorem v14_at (x0 : (⟨S8192x256, .f32⟩ : BufTy).Contents (Elt Ideal)) (r j : Fin 8192) :
    val_main_v14 (F := Ideal) x0 (ix2 r j)
      = Spec.gram (fun k => val_main_v5 (F := Ideal) x0 (ix2 r k)) (fun k => val_main_v5 (F := Ideal) x0 (ix2 j k)) := by
  rw [val_main_v14_apply]
  simp only [val_main_v13_apply, idx_dot_l, idx_dot_r]
  rfl

/-- The clamped squared distance of rows r and j. -/
theorem v18_at (x0 : (⟨S8192x256, .f32⟩ : BufTy).Contents (Elt Ideal)) (r j : Fin 8192) :
    val_main_v18 (F := Ideal) x0 (ix2 r j)
      = Spec.dist (fun k => val_main_v5 (F := Ideal) x0 (ix2 r k)) (fun k => val_main_v5 (F := Ideal) x0 (ix2 j k)) := by
  rw [val_main_v18_apply, val_main_call0_v1_apply, val_main_call0_v0_apply, val_main_cst_2_apply,
    val_main_v17_apply, val_main_v12_apply, val_main_v10_apply, val_main_v8_apply, val_main_v11_apply, val_main_v9_apply,
    idx_norm_row, idx_norm_col, v7_at, v7_at, val_main_v16_apply, val_main_v15_apply, val_main_cst_1_apply, v14_at]
  rfl

/-- Selecting on a comparison for equality of two words is the choice on their equality. -/
theorem select_cmpi_eq {α : Type} (a b : BitVec 32) (x y : α) :
    Scalar.select (IntOp.cmpi .eq a b) x y = if a = b then x else y := by
  by_cases h : a = b
  · have hc : IntOp.cmpi .eq a b = 1#1 := by
      unfold IntOp.cmpi
      have hb : (a == b) = true := beq_iff_eq.2 h
      simp only [hb]; rfl
    rw [if_pos h, hc]; exact ValueIdx.select_one x y
  · have hc : IntOp.cmpi .eq a b = 0#1 := by
      unfold IntOp.cmpi
      have hb : (a == b) = false := beq_eq_false_iff_ne.2 h
      simp only [hb]; rfl
    rw [if_neg h, hc]; exact ValueIdx.select_zero x y

/-- Column j's candidate for row r's hardest positive. -/
theorem v24_at (x0 : (⟨S8192x256, .f32⟩ : BufTy).Contents (Elt Ideal)) (x1 : (⟨S8192, .i32⟩ : BufTy).Contents (Elt Ideal)) (r j : Fin 8192) :
    val_main_v24 (F := Ideal) x0 x1 (ix2 r j)
      = Spec.posC (fun r k => val_main_v5 (F := Ideal) x0 (ix2 r k)) (fun r => x1 (ix1 r)) r j := by
  rw [val_main_v24_apply, v23_at, v18_at, val_main_call1_v0_apply, val_main_cst_3_apply, select_cmpi_eq]
  rfl

/-- Column j's candidate for row r's hardest negative. -/
theorem v26_at (x0 : (⟨S8192x256, .f32⟩ : BufTy).Contents (Elt Ideal)) (x1 : (⟨S8192, .i32⟩ : BufTy).Contents (Elt Ideal)) (r j : Fin 8192) :
    val_main_v26 (F := Ideal) x0 x1 (ix2 r j)
      = Spec.negC (fun r k => val_main_v5 (F := Ideal) x0 (ix2 r k)) (fun r => x1 (ix1 r)) r j := by
  rw [val_main_v26_apply, v23_at, v18_at, val_main_call2_v0_apply, val_main_cst_5_apply, select_cmpi_eq]
  rfl

/-- Row r's hardest positive: the reduce with a maximum body over the columns, from −∞. -/
theorem v25_at (x0 : (⟨S8192x256, .f32⟩ : BufTy).Contents (Elt Ideal)) (x1 : (⟨S8192, .i32⟩ : BufTy).Contents (Elt Ideal)) (r : Fin 8192) :
    val_main_v25 (F := Ideal) x0 x1 (ix1 r)
      = Spec.pos (fun r k => val_main_v5 (F := Ideal) x0 (ix2 r k)) (fun r => x1 (ix1 r)) r := by
  have h : S8192x8192.Reduces [1] S8192 := by decide
  have hf : (val_main_v24 (F := Ideal) x0 x1 ∘ h.lift (ix1 r))
      = Spec.posC (fun r k => val_main_v5 (F := Ideal) x0 (ix2 r k)) (fun r => x1 (ix1 r)) r :=
    funext fun k => (congrArg (val_main_v24 (F := Ideal) x0 x1) (lift_row h r k)).trans (v24_at x0 x1 r ⟨k.val, k.isLt⟩)
  unfold val_main_v25
  rw [Host.reduce_eq_fold_single FloatOps.maximumf _ _ reducesTo_S8192x8192_S8192_d1 h h_S_, val_main_cst_4_apply]
  exact congrArg (fun f => Finset.fold max Spec.ninf f (Finset.univ : Finset (Fin 8192))) hf

/-- Row r's hardest negative: the reduce with a minimum body over the columns, from +∞. -/
theorem v27_at (x0 : (⟨S8192x256, .f32⟩ : BufTy).Contents (Elt Ideal)) (x1 : (⟨S8192, .i32⟩ : BufTy).Contents (Elt Ideal)) (r : Fin 8192) :
    val_main_v27 (F := Ideal) x0 x1 (ix1 r)
      = Spec.neg (fun r k => val_main_v5 (F := Ideal) x0 (ix2 r k)) (fun r => x1 (ix1 r)) r := by
  have h : S8192x8192.Reduces [1] S8192 := by decide
  have hf : (val_main_v26 (F := Ideal) x0 x1 ∘ h.lift (ix1 r))
      = Spec.negC (fun r k => val_main_v5 (F := Ideal) x0 (ix2 r k)) (fun r => x1 (ix1 r)) r :=
    funext fun k => (congrArg (val_main_v26 (F := Ideal) x0 x1) (lift_row h r k)).trans (v26_at x0 x1 r ⟨k.val, k.isLt⟩)
  unfold val_main_v27
  rw [Host.reduce_eq_fold_single FloatOps.minimumf _ _ reducesTo_S8192x8192_S8192_d1 h h_S_, val_main_cst_6_apply]
  exact congrArg (fun f => Finset.fold min Spec.pinf f (Finset.univ : Finset (Fin 8192))) hf

/-- Entry r of the vector the reference's last sum adds up is row r's loss, over the normalised rows the reference
    itself computes (its fifth value) and the launched labels. -/
theorem rowLoss_apply (x0 : (⟨S8192x256, .f32⟩ : BufTy).Contents (Elt Ideal)) (x1 : (⟨S8192, .i32⟩ : BufTy).Contents (Elt Ideal)) (r : Fin 8192) :
    val_main_v31 (F := Ideal) x0 x1 (ix1 r)
      = Spec.rowLoss (fun r k => val_main_v5 (F := Ideal) x0 (ix2 r k)) (fun r => x1 (ix1 r)) r := by
  rw [val_main_v31_apply, val_main_v30_apply, val_main_v28_apply, v25_at, v27_at, val_main_v29_apply, val_main_cst_7_apply,
    val_main_call3_v0_apply, val_main_call3_cst_apply]
  rfl

end Cert.ReferenceIdeal.RefValue

end
-- ==== Proof.Bridge.lean ====
/-
  The two programs' results are one number.

  The kernel's program ends at the mean of the output array its pipeline wrote, the reference at the mean of its per-row
  loss vector; both means are the same host operations (a sum over every entry from 0, a division by 8192) of arrays
  whose entries agree row by row: each is the batch-hard loss of that row, over the same normalised rows (the same nine
  host operations on the same launched inputs) and the same labels.
-/
import proofs.«154702_j16406775070902_1_alg».proof.Proof.KI.Value
import proofs.«154702_j16406775070902_1_alg».proof.Proof.Ref.Value

set_option maxRecDepth 16384

noncomputable section

namespace Cert.Proof.Bridge

open Idealize.ShloMosaic Idealize.ShloMosaic.TcCoe Idealize.SL.Sem
open Idealize.ShloMosaic.ValueIdx (ix1 ix2 eq_ix1 eq_ix2)

/-- The reference's normalised rows are the kernel program's: the same operations on the same input. -/
theorem normRows_eq (x0 : (⟨Cert.ReferenceIdeal.S8192x256, .f32⟩ : BufTy).Contents (Elt Ideal)) :
    Cert.ReferenceIdeal.Read.val_main_v5 (F := Ideal) x0 = Cert.KernelIdeal.Hand.normRows (F := Ideal) x0 := rfl

/-- The entries of a vector of length n, and of an n × 1 column, counted by `Fin n`. -/
def vecEquiv (n : ℕ) : Fin n ≃ (⟨1, ![n]⟩ : Shape).Idx where
  toFun r := ix1 r
  invFun j := j 0
  left_inv _ := rfl
  right_inv j := (eq_ix1 j).symm
def colEquiv (n : ℕ) : Fin n ≃ (⟨2, ![n, 1]⟩ : Shape).Idx where
  toFun r := ix2 r (0 : Fin 1)
  invFun j := j 0
  left_inv _ := rfl
  right_inv j := by
    funext a
    match a with
    | ⟨0, _⟩ => rfl
    | ⟨1, h⟩ =>
      refine Fin.ext ?_
      have h1 : (j ⟨1, h⟩).val < 1 := (j ⟨1, h⟩).isLt
      show (0 : ℕ) = (j ⟨1, h⟩).val
      omega

/-- The reference's result term is the mean of the kernel program's output array, from memories agreeing on the inputs. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Value.res_main_v33 (F := Ideal) m' c = Cert.KernelIdeal.Hand.meanOf (Cert.KernelIdeal.Hand.outArr m c) := by
  rw [Cert.ReferenceIdeal.Read.val_main_v33_eq, h0, h1]
  unfold Cert.ReferenceIdeal.Read.val_main_v33 Cert.KernelIdeal.Hand.meanOf
  refine congrArg (fun s => Host.divf s _) ?_
  funext i
  rw [Cert.ReferenceIdeal.Read.val_main_v32_apply]
  generalize hx0 : m ((c.tc : Thread Cert.KernelIdeal.nD Cert.KernelIdeal.τ).loc Cert.KernelIdeal.main_arg0) = x0
  generalize hx1 : m ((c.tc : Thread Cert.KernelIdeal.nD Cert.KernelIdeal.τ).loc Cert.KernelIdeal.main_arg1) = x1
  have hk : Host.reduceAdd (F := Ideal) (Cert.KernelIdeal.Hand.outArr m c) (constant Cert.KernelIdeal.S_ .f32 0x00000000#32) Cert.KernelIdeal.Facts₀.reducesTo_S8192x1_S_d0_1 Cert.KernelIdeal.Facts₀.h_S_ i
      = Ideal.ofBits .f32 0x00000000#32 + ∑ j : Cert.KernelIdeal.S8192x1.Idx, Cert.KernelIdeal.Hand.outArr m c j := by
    generalize Cert.KernelIdeal.Hand.outArr m c = y0
    simp only [Host.reduceAdd, Ideal.hostReduceAdd_def]
    exact Ideal.hostReduceAdd_total Cert.KernelIdeal.Facts₀.reducesTo_S8192x1_S_d0_1 (fun b => b.elim0) y0 _ i
  refine Eq.trans ?_ hk.symm
  refine congrArg (fun s => Ideal.ofBits .f32 0x00000000#32 + s) ?_
  rw [← (vecEquiv 8192).sum_comp, ← (colEquiv 8192).sum_comp]
  refine Finset.sum_congr rfl fun r _ => ?_
  show Cert.ReferenceIdeal.Read.val_main_v31 (F := Ideal) x0 x1 (ix1 r) = Cert.KernelIdeal.Hand.outArr m c (ix2 r (0 : Fin 1))
  rw [Cert.ReferenceIdeal.RefValue.rowLoss_apply, Cert.KernelIdeal.Hand.outArr_row]
  have hv : Cert.KernelIdeal.Hand.vsF m c = fun r k => Cert.ReferenceIdeal.Read.val_main_v5 (F := Ideal) x0 (ix2 r k) := by
    funext r k
    show Cert.KernelIdeal.Hand.vsArr m c (ix2 r k) = _
    rw [Cert.KernelIdeal.Hand.vsArr_eq, hx0, normRows_eq]
  have ht : Cert.KernelIdeal.Hand.tgF m c = fun r => x1 (ix1 r) := by
    funext r
    show m ((c.tc : Thread Cert.KernelIdeal.nD Cert.KernelIdeal.τ).loc Cert.KernelIdeal.main_arg1) (ix1 r) = _
    rw [hx1]
  rw [hv, ht]

end Cert.Proof.Bridge

end
-- ==== Proof.lean ====
/-
  The certificate of the batch-hard mining kernel against its reference.

  Both programs normalise the 8192 rows, and for every row take the largest clamped squared distance to a row with the
  same label, the smallest to a row with another label, add the margin to their difference, clamp at zero, and average.
  The kernel does it tile by tile on an 8 × 8 grid with two running columns in scratch memory; the reference on the whole
  8192 × 8192 distance matrix.  Over the extended reals a maximum from −∞ and a minimum from +∞ do not depend on how the
  columns are grouped, a matrix product is the same sum of products whatever the operands' format, and the final mean is
  the same sum divided by the same number: the two results are equal.

  The three frames: the kernel's program runs — nine host operations, the region, four host operations — at either
  float instance from any memory, by the region's body obligation (the three control cases of the body) under the
  pipeline library's launch for windows that share an array; the reference is host operations only.
-/
import proofs.«154702_j16406775070902_1_alg».proof.Defs
import proofs.«154702_j16406775070902_1_alg».proof.Proof.Gen.Kernel
import proofs.«154702_j16406775070902_1_alg».proof.Proof.Gen.KernelIdeal
import proofs.«154702_j16406775070902_1_alg».proof.Proof.Gen.ReferenceIdeal
import proofs.«154702_j16406775070902_1_alg».proof.Proof.Gen.Pre_finite_inputs
import proofs.«154702_j16406775070902_1_alg».proof.Proof.Gen.ReferenceIdeal.Run
import proofs.«154702_j16406775070902_1_alg».proof.Proof.K.Oblig
import proofs.«154702_j16406775070902_1_alg».proof.Proof.K.Launch
import proofs.«154702_j16406775070902_1_alg».proof.Proof.KI.Oblig
import proofs.«154702_j16406775070902_1_alg».proof.Proof.KI.Launch
import proofs.«154702_j16406775070902_1_alg».proof.Proof.Bridge
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel := fun m ρ _ =>
  (θ_run Cert.Kernel.defs _ _).mono (fun _ h c => (h c).2)
    (Cert.Kernel.Hand.run_main (F := Bits) m ρ fun c => (Cert.Kernel.Hand.body_obligation m c).loose)

/-- So does the idealized program. -/
theorem frame_ki : Cert.frame_KernelIdeal := fun m ρ _ =>
  (θ_run Cert.KernelIdeal.defs _ _).mono (fun _ h c => (h c).2)
    (Cert.KernelIdeal.Hand.run_main (F := Ideal) m ρ fun c => (Cert.KernelIdeal.Hand.body_obligation m c).loose)

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the inputs both programs end at the mean of the per-row losses. -/
theorem algebraic : Cert.algebraic_KernelIdeal_ReferenceIdeal := by
  intro m ρ m' ρ' _ hagree
  refine ⟨fun c => Cert.KernelIdeal.Hand.meanOf (Cert.KernelIdeal.Hand.outArr m c),
    Cert.KernelIdeal.Hand.run_main (F := Ideal) m ρ fun c => (Cert.KernelIdeal.Hand.body_obligation m c).loose, ?_⟩
  refine (θ_run Cert.ReferenceIdeal.defs _ _).mono (fun _ h c => ⟨(h c).1.trans ?_, (h c).2⟩)
    (Cert.ReferenceIdeal.Value.run (F := Ideal) m' ρ')
  exact Cert.Proof.Bridge.result_eq m m' c (hagree c).1 (hagree c).2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
